-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_3)) (v1 : (c : Dev Cert.KernelIdeal.nD) → Buf (Elt Ideal) ((c.tc : Thread Cert.KernelIdeal.nD Cert.KernelIdeal.τ).loc Cert.KernelIdeal.main_v0_4)) (v2 : (c : Dev Cert.KernelIdeal.nD) → Buf (Elt Ideal) ((c.tc : Thread Cert.KernelIdeal.nD Cert.KernelIdeal.τ).loc Cert.KernelIdeal.main_v9_0)) (v3 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_3) = v0 c
          ∧ r.2.mem ((c.tc : Thread Cert.KernelIdeal.nD Cert.KernelIdeal.τ).loc Cert.KernelIdeal.main_v0_4) = v1 c
          ∧ r.2.mem ((c.tc : Thread Cert.KernelIdeal.nD Cert.KernelIdeal.τ).loc Cert.KernelIdeal.main_v9_0) = v2 c
          ∧ r.2.mem ((c.tc : Thread Cert.KernelIdeal.nD Cert.KernelIdeal.τ).loc Cert.KernelIdeal.main_v9_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) (main_arg2 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192 : Shape := ⟨1, ![8192]⟩
abbrev S_ : Shape := ⟨0, ![]⟩
abbrev S1 : Shape := ⟨1, ![1]⟩
abbrev S8193 : Shape := ⟨1, ![8193]⟩
abbrev S8320 : Shape := ⟨1, ![8320]⟩
abbrev S8193x8193 : Shape := ⟨2, ![8193, 8193]⟩
abbrev S128 : Shape := ⟨1, ![128]⟩
abbrev S128x8193 : Shape := ⟨2, ![128, 8193]⟩
abbrev S128x1 : Shape := ⟨2, ![128, 1]⟩
abbrev S1x8193 : Shape := ⟨2, ![1, 8193]⟩

abbrev nBuf : Space → Nat
  | .hbm => 25
  | .vmem => 17
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S1, .f32⟩
  | .hbm, ⟨10, _⟩ => ⟨S8193, .f32⟩
  | .hbm, ⟨11, _⟩ => ⟨S_, .f32⟩
  | .hbm, ⟨12, _⟩ => ⟨S1, .f32⟩
  | .hbm, ⟨13, _⟩ => ⟨S8193, .f32⟩
  | .hbm, ⟨14, _⟩ => ⟨S_, .f32⟩
  | .hbm, ⟨15, _⟩ => ⟨S1, .f32⟩
  | .hbm, ⟨16, _⟩ => ⟨S8193, .f32⟩
  | .hbm, ⟨17, _⟩ => ⟨S_, .i32⟩
  | .hbm, ⟨18, _⟩ => ⟨S_, .f32⟩
  | .hbm, ⟨19, _⟩ => ⟨S8320, .f32⟩
  | .hbm, ⟨20, _⟩ => ⟨S_, .i32⟩
  | .hbm, ⟨21, _⟩ => ⟨S_, .f32⟩
  | .hbm, ⟨22, _⟩ => ⟨S8320, .f32⟩
  | .hbm, ⟨23, _⟩ => ⟨S8193x8193, .f32⟩
  | .hbm, ⟨24, _⟩ => ⟨S8193x8193, .f32⟩
  | .local _ .vmem, ⟨0, _⟩ => ⟨S8192, .f32⟩
  | .local _ .vmem, ⟨1, _⟩ => ⟨S8192, .f32⟩
  | .local _ .vmem, ⟨2, _⟩ => ⟨S8192, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S8193, .f32⟩
  | .local _ .vmem, ⟨13, _⟩ => ⟨S128x8193, .f32⟩
  | .local _ .vmem, ⟨14, _⟩ => ⟨S128x8193, .f32⟩
  | .local _ .vmem, ⟨15, _⟩ => ⟨S128x8193, .f32⟩
  | .local _ .vmem, ⟨16, _⟩ => ⟨S128x8193, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_c_2 : Ref sig .tc := ⟨.hbm, 20, rfl⟩
abbrev main_call1_v0 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![65], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8193 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x8193 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x8193 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S8192_S8192_0 : ∀ a, (![0] : Fin 1 → Nat) a + S8192.size a ≤ S8192.size a
  h_S8192 : 0 < S8192.numel
  bcast_S_S1 : S_.BroadcastsInDim S1 (![] : Fin 0 → Fin S1.rank)
  concatenates_S8192_S1_S8193_d0 : Shape.Concatenates [S8192, S1] S8193 0
  pads_S8193_S8320_01270 : S8193.Pads (![0] : Fin 1 → Nat) ![127] ![0] S8320
  h_S_ : 0 < S_.numel
  iota_S128x8193_d1_w32 : S128x8193.Iotas .tc 32 [1]
  iota_S128x8193_d0_w32 : S128x8193.Iotas .tc 32 [0]
  inb_S128_S128_0 : ∀ a, (![0] : Fin 1 → Nat) a + S128.size a ≤ S128.size a
  h_S128 : 0 < S128.numel
  shapeCasts_S128_S128 : S128.ShapeCasts S128
  shapeCasts_S128_S128x1 : S128.ShapeCasts S128x1
  shapeCasts_S128x1_S128x1 : S128x1.ShapeCasts S128x1
  broadcasts_S128x1_S128x8193 : S128x1.Broadcasts S128x8193
  inb_S8193_S8193_0 : ∀ a, (![0] : Fin 1 → Nat) a + S8193.size a ≤ S8193.size a
  h_S8193 : 0 < S8193.numel
  shapeCasts_S8193_S8193 : S8193.ShapeCasts S8193
  shapeCasts_S8193_S1x8193 : S8193.ShapeCasts S1x8193
  shapeCasts_S1x8193_S1x8193 : S1x8193.ShapeCasts S1x8193
  broadcasts_S1x8193_S128x8193 : S1x8193.Broadcasts S128x8193
  inb_S128x8193_S128x8193_0_0 : ∀ a, (![0, 0] : Fin 2 → Nat) a + S128x8193.size a ≤ S128x8193.size a
  h_S128x8193 : 0 < S128x8193.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S8192.size a
  hwx0_0 : ∀ i : grid0.Coords, EltTy.bits .f32 = 32 ∨ (Rect.block (s := S8192) S8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8192.size a
  hwx0_1 : ∀ i : grid0.Coords, EltTy.bits .f32 = 32 ∨ (Rect.block (s := S8192) S8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8192.size a
  hwx0_2 : ∀ i : grid0.Coords, EltTy.bits .f32 = 32 ∨ (Rect.block (s := S8192) S8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8192.size a
  hwx0_3 : ∀ i : grid0.Coords, EltTy.bits .f32 = 32 ∨ (Rect.block (s := S8192) S8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S8192.size a
  hwx0_4 : ∀ i : grid0.Coords, EltTy.bits .f32 = 32 ∨ (Rect.block (s := S8192) S8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S8192.size a
  hwx0_5 : ∀ i : grid0.Coords, EltTy.bits .f32 = 32 ∨ (Rect.block (s := S8192) S8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8192.size a ≤ S8192.size a
  hwx0_6 : ∀ i : grid0.Coords, EltTy.bits .f32 = 32 ∨ (Rect.block (s := S8192) S8192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S8192.size a
  hwx0_7 : ∀ i : grid0.Coords, EltTy.bits .f32 = 32 ∨ (Rect.block (s := S8192) S8192.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128.size a ≤ S8320.size a
  hwx1_0 : ∀ i : grid1.Coords, EltTy.bits .f32 = 32 ∨ (Rect.block (s := S8320) S128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S8320.size a
  hwx1_1 : ∀ i : grid1.Coords, EltTy.bits .f32 = 32 ∨ (Rect.block (s := S8320) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8193.size a ≤ S8193.size a
  hwx1_2 : ∀ i : grid1.Coords, EltTy.bits .f32 = 32 ∨ (Rect.block (s := S8193) S8193.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S128x8193.size a < S8193x8193.size a
  hwx1_3 : ∀ i : grid1.Coords, EltTy.bits .f32 = 32 ∨ (Rect.unit (s := S8193x8193) (fun a => cc1_transform_3 i a * S128x8193.size a) (fun a => (Pipeline.Clip.of (cc1_transform_3 i a) (S128x8193.size a) (S8193x8193.size a)).extent (S128x8193.size a)) fun a => Pipeline.Clip.inb (Pipeline.Clip.ok_of (hstart1_3 i a))).WholeWords (EltTy.packing .f32)
  hwxs1_3 : ∀ i : grid1.Coords, EltTy.bits .f32 = 32 ∨ (Rect.unit (s := S128x8193) (fun _ => 0) (fun a => (Pipeline.Clip.of (cc1_transform_3 i a) (S128x8193.size a) (S8193x8193.size a)).extent (S128x8193.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S128x8193.size a < S8193x8193.size a
  hwx1_4 : ∀ i : grid1.Coords, EltTy.bits .f32 = 32 ∨ (Rect.unit (s := S8193x8193) (fun a => cc1_transform_4 i a * S128x8193.size a) (fun a => (Pipeline.Clip.of (cc1_transform_4 i a) (S128x8193.size a) (S8193x8193.size a)).extent (S128x8193.size a)) fun a => Pipeline.Clip.inb (Pipeline.Clip.ok_of (hstart1_4 i a))).WholeWords (EltTy.packing .f32)
  hwxs1_4 : ∀ i : grid1.Coords, EltTy.bits .f32 = 32 ∨ (Rect.unit (s := S128x8193) (fun _ => 0) (fun a => (Pipeline.Clip.of (cc1_transform_4 i a) (S128x8193.size a) (S8193x8193.size a)).extent (S128x8193.size a)) fun a => (Nat.zero_add _).trans_le (Pipeline.Clip.extent_le (Pipeline.Clip.ok_of (hstart1_4 i a)))).WholeWords (EltTy.packing .f32)

variable [Facts₀]

abbrev win0_0 : Pipeline.Window sig grid0 :=
  Pipeline.Window.ofSpec (Memref.whole main_arg0) S8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8192.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8192.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S8192.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S8192.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S8192.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7) S128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8193.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v9_0) S128x8193.size cc1_transform_3 reads1_3 true false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v9_1) S128x8193.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192 : Shape := ⟨1, ![8192]⟩
abbrev S_ : Shape := ⟨0, ![]⟩
abbrev S8193x8193 : Shape := ⟨2, ![8193, 8193]⟩
abbrev S8192x1 : Shape := ⟨2, ![8192, 1]⟩
abbrev S8192x2 : Shape := ⟨2, ![8192, 2]⟩
abbrev S1 : Shape := ⟨1, ![1]⟩
abbrev S2 : Shape := ⟨1, ![2]⟩

abbrev nBuf : Space → Nat
  | .hbm => 129
  | .vmem => 0
  | .smem => 0
  | _ => 0

abbrev hbmTy0_0 (i : Nat) : BufTy := match i % 128 with
  | 0 => ⟨S8192, .f32⟩
  | 1 => ⟨S8192, .f32⟩
  | 2 => ⟨S8192, .f32⟩
  | 3 => ⟨S_, .f32⟩
  | 4 => ⟨S8192, .f32⟩
  | 5 => ⟨S8192, .i1⟩
  | 6 => ⟨S_, .f32⟩
  | 7 => ⟨S8192, .f32⟩
  | 8 => ⟨S8192, .i1⟩
  | 9 => ⟨S8192, .i1⟩
  | 10 => ⟨S_, .f32⟩
  | 11 => ⟨S8192, .f32⟩
  | 12 => ⟨S8192, .i1⟩
  | 13 => ⟨S_, .f32⟩
  | 14 => ⟨S8192, .f32⟩
  | 15 => ⟨S8192, .i1⟩
  | 16 => ⟨S8192, .i1⟩
  | 17 => ⟨S_, .f32⟩
  | 18 => ⟨S_, .f32⟩
  | 19 => ⟨S_, .f32⟩
  | 20 => ⟨S8192, .f32⟩
  | 21 => ⟨S8192, .f32⟩
  | 22 => ⟨S_, .f32⟩
  | 23 => ⟨S8192, .f32⟩
  | 24 => ⟨S8192, .f32⟩
  | 25 => ⟨S8192, .f32⟩
  | 26 => ⟨S_, .f32⟩
  | 27 => ⟨S8192, .f32⟩
  | 28 => ⟨S8192, .i1⟩
  | 29 => ⟨S_, .f32⟩
  | 30 => ⟨S8192, .f32⟩
  | 31 => ⟨S8192, .f32⟩
  | 32 => ⟨S8192, .f32⟩
  | 33 => ⟨S_, .f32⟩
  | 34 => ⟨S_, .f32⟩
  | 35 => ⟨S8192, .f32⟩
  | 36 => ⟨S8192, .f32⟩
  | 37 => ⟨S_, .f32⟩
  | 38 => ⟨S_, .f32⟩
  | 39 => ⟨S8192, .f32⟩
  | 40 => ⟨S8192, .f32⟩
  | 41 => ⟨S_, .f32⟩
  | 42 => ⟨S_, .f32⟩
  | 43 => ⟨S8192, .f32⟩
  | 44 => ⟨S8192, .f32⟩
  | 45 => ⟨S_, .f32⟩
  | 46 => ⟨S_, .f32⟩
  | 47 => ⟨S8192, .f32⟩
  | 48 => ⟨S8192, .f32⟩
  | 49 => ⟨S8192, .f32⟩
  | 50 => ⟨S8192, .f32⟩
  | 51 => ⟨S_, .f32⟩
  | 52 => ⟨S_, .f32⟩
  | 53 => ⟨S8192, .f32⟩
  | 54 => ⟨S8192, .f32⟩
  | 55 => ⟨S8192, .f32⟩
  | 56 => ⟨S_, .f32⟩
  | 57 => ⟨S_, .f32⟩
  | 58 => ⟨S8192, .f32⟩
  | 59 => ⟨S8192, .f32⟩
  | 60 => ⟨S8192, .f32⟩
  | 61 => ⟨S_, .f32⟩
  | 62 => ⟨S8192, .f32⟩
  | 63 => ⟨S8192, .i1⟩
  | 64 => ⟨S_, .f32⟩
  | 65 => ⟨S_, .f32⟩
  | 66 => ⟨S8192, .f32⟩
  | 67 => ⟨S8192, .f32⟩
  | 68 => ⟨S8192, .i32⟩
  | 69 => ⟨S_, .f32⟩
  | 70 => ⟨S8193x8193, .f32⟩
  | 71 => ⟨S_, .i32⟩
  | 72 => ⟨S8192, .i32⟩
  | 73 => ⟨S8192, .i1⟩
  | 74 => ⟨S_, .i32⟩
  | 75 => ⟨S8192, .i32⟩
  | 76 => ⟨S8192, .i32⟩
  | 77 => ⟨S8192, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x1, .i32⟩
  | 87 => ⟨S8192x2, .i32⟩
  | 88 => ⟨S8193x8193, .f32⟩
  | 89 => ⟨S_, .i32⟩
  | 90 => ⟨S1, .i32⟩
  | 91 => ⟨S_, .i32⟩
  | 92 => ⟨S1, .i32⟩
  | 93 => ⟨S2, .i32⟩
  | 94 => ⟨S_, .f32⟩
  | 95 => ⟨S8193x8193, .f32⟩
  | 96 => ⟨S_, .f32⟩
  | 97 => ⟨S8193x8193, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x1, .i32⟩
  | 114 => ⟨S8192x2, .i32⟩
  | 115 => ⟨S8193x8193, .f32⟩
  | 116 => ⟨S_, .i32⟩
  | 117 => ⟨S1, .i32⟩
  | 118 => ⟨S_, .i32⟩
  | 119 => ⟨S1, .i32⟩
  | 120 => ⟨S2, .i32⟩
  | 121 => ⟨S8193x8193, .f32⟩
  | 122 => ⟨S_, .i32⟩
  | 123 => ⟨S1, .i32⟩
  | 124 => ⟨S_, .i32⟩
  | 125 => ⟨S1, .i32⟩
  | 126 => ⟨S2, .i32⟩
  | 127 => ⟨S_, .f32⟩
  | _ => ⟨S8192, .f32⟩

abbrev hbmTy0_1 (i : Nat) : BufTy := match i % 128 with
  | 0 => ⟨S8193x8193, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_call2_v0 : Ref sig .tc := ⟨.hbm, 34, rfl⟩
abbrev main_call2_v1 : Ref sig .tc := ⟨.hbm, 35, rfl⟩
abbrev main_v17 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_v18 : Ref sig .tc := ⟨.hbm, 40, rfl⟩
abbrev main_cst_9 : Ref sig .tc := ⟨.hbm, 41, rfl⟩
abbrev main_call4_v0 : Ref sig .tc := ⟨.hbm, 42, rfl⟩
abbrev main_call4_v1 : Ref sig .tc := ⟨.hbm, 43, rfl⟩
abbrev main_v19 : Ref sig .tc := ⟨.hbm, 44, rfl⟩
abbrev main_cst_10 : Ref sig .tc := ⟨.hbm, 45, rfl⟩
abbrev main_call5_v0 : Ref sig .tc := ⟨.hbm, 46, rfl⟩
abbrev main_call5_v1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_11 : Ref sig .tc := ⟨.hbm, 51, rfl⟩
abbrev main_call6_v0 : Ref sig .tc := ⟨.hbm, 52, rfl⟩
abbrev main_call6_v1 : Ref sig .tc := ⟨.hbm, 53, rfl⟩
abbrev main_v23 : Ref sig .tc := ⟨.hbm, 54, rfl⟩
abbrev main_v24 : Ref sig .tc := ⟨.hbm, 55, rfl⟩
abbrev main_cst_12 : Ref sig .tc := ⟨.hbm, 56, rfl⟩
abbrev main_call7_v0 : Ref sig .tc := ⟨.hbm, 57, rfl⟩
abbrev main_call7_v1 : Ref sig .tc := ⟨.hbm, 58, rfl⟩
abbrev main_v25 : Ref sig .tc := ⟨.hbm, 59, rfl⟩
abbrev main_v26 : Ref sig .tc := ⟨.hbm, 60, rfl⟩
abbrev main_cst_13 : Ref sig .tc := ⟨.hbm, 61, rfl⟩
abbrev main_v27 : Ref sig .tc := ⟨.hbm, 62, rfl⟩
abbrev main_v28 : Ref sig .tc := ⟨.hbm, 63, rfl⟩
abbrev main_cst_14 : Ref sig .tc := ⟨.hbm, 64, rfl⟩
abbrev main_call9_v0 : Ref sig .tc := ⟨.hbm, 65, rfl⟩
abbrev main_call9_v1 : Ref sig .tc := ⟨.hbm, 66, rfl⟩
abbrev main_v29 : Ref sig .tc := ⟨.hbm, 67, rfl⟩
abbrev main_v30 : Ref sig .tc := ⟨.hbm, 68, rfl⟩
abbrev main_cst_15 : Ref sig .tc := ⟨.hbm, 69, rfl⟩
abbrev main_v31 : Ref sig .tc := ⟨.hbm, 70, rfl⟩
abbrev main_c : Ref sig .tc := ⟨.hbm, 71, rfl⟩
abbrev main_v32 : Ref sig .tc := ⟨.hbm, 72, rfl⟩
abbrev main_v33 : Ref sig .tc := ⟨.hbm, 73, rfl⟩
abbrev main_c_16 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_c_17 : Ref sig .tc := ⟨.hbm, 78, rfl⟩
abbrev main_v37 : Ref sig .tc := ⟨.hbm, 79, rfl⟩
abbrev main_v38 : Ref sig .tc := ⟨.hbm, 80, rfl⟩
abbrev main_c_18 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_19 : Ref sig .tc := ⟨.hbm, 89, rfl⟩
abbrev main_v46 : Ref sig .tc := ⟨.hbm, 90, rfl⟩
abbrev main_c_20 : Ref sig .tc := ⟨.hbm, 91, rfl⟩
abbrev main_v47 : Ref sig .tc := ⟨.hbm, 92, rfl⟩
abbrev main_v48 : Ref sig .tc := ⟨.hbm, 93, rfl⟩
abbrev main_cst_21 : Ref sig .tc := ⟨.hbm, 94, rfl⟩
abbrev main_v49 : Ref sig .tc := ⟨.hbm, 95, rfl⟩
abbrev main_cst_22 : Ref sig .tc := ⟨.hbm, 96, rfl⟩
abbrev main_v50 : Ref sig .tc := ⟨.hbm, 97, rfl⟩
abbrev main_c_23 : Ref sig .tc := ⟨.hbm, 98, rfl⟩
abbrev main_v51 : Ref sig .tc := ⟨.hbm, 99, rfl⟩
abbrev main_v52 : Ref sig .tc := ⟨.hbm, 100, rfl⟩
abbrev main_c_24 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_25 : Ref sig .tc := ⟨.hbm, 105, rfl⟩
abbrev main_v56 : Ref sig .tc := ⟨.hbm, 106, rfl⟩
abbrev main_v57 : Ref sig .tc := ⟨.hbm, 107, rfl⟩
abbrev main_c_26 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_c_27 : Ref sig .tc := ⟨.hbm, 116, rfl⟩
abbrev main_v65 : Ref sig .tc := ⟨.hbm, 117, rfl⟩
abbrev main_c_28 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_29 : Ref sig .tc := ⟨.hbm, 122, rfl⟩
abbrev main_v69 : Ref sig .tc := ⟨.hbm, 123, rfl⟩
abbrev main_c_30 : Ref sig .tc := ⟨.hbm, 124, rfl⟩
abbrev main_v70 : Ref sig .tc := ⟨.hbm, 125, rfl⟩
abbrev main_v71 : Ref sig .tc := ⟨.hbm, 126, rfl⟩
abbrev main_cst_31 : Ref sig .tc := ⟨.hbm, 127, rfl⟩
abbrev main_v72 : Ref sig .tc := ⟨.hbm, 128, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S_S8193x8193 : S_.BroadcastsInDim S8193x8193 (![] : Fin 0 → Fin S8193x8193.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S1 : S_.BroadcastsInDim S1 (![] : Fin 0 → Fin S1.rank)
  concatenates_S1_S1_S2_d0 : Shape.Concatenates [S1, S1] S2 0
  scatter_S8193x8193_S8192x2_S8192_n_01_01_1_wf : ScatterDims.WF S8193x8193 S8192x2 S8192 [] [0, 1] [0, 1] 1
  scatter_S8193x8193_S2_S__n_01_01_0_wf : ScatterDims.WF S8193x8193 S2 S_ [] [0, 1] [0, 1] 0
  scatter_S8193x8193_S2_S8192_0_0_01_0_wf : ScatterDims.WF S8193x8193 S2 S8192 [0] [0] [0, 1] 0

variable [Facts₀]

def scatter_S8193x8193_S8192x2_S8192_n_01_01_1 : ScatterDims S8193x8193 S8192x2 S8192 where
  updateWindowDims := []
  insertedWindowDims := [0, 1]
  scatterDimsToOperandDims := [0, 1]
  indexVectorDim := 1
  wf := scatter_S8193x8193_S8192x2_S8192_n_01_01_1_wf
def scatter_S8193x8193_S2_S__n_01_01_0 : ScatterDims S8193x8193 S2 S_ where
  updateWindowDims := []
  insertedWindowDims := [0, 1]
  scatterDimsToOperandDims := [0, 1]
  indexVectorDim := 0
  wf := scatter_S8193x8193_S2_S__n_01_01_0_wf
def scatter_S8193x8193_S2_S8192_0_0_01_0 : ScatterDims S8193x8193 S2 S8192 where
  updateWindowDims := [0]
  insertedWindowDims := [0]
  scatterDimsToOperandDims := [0, 1]
  indexVectorDim := 0
  wf := scatter_S8193x8193_S2_S8192_0_0_01_0_wf

class Facts : Prop extends Facts₀ where

variable [Facts]
-- ==== Proof.Spec.lean ====
/-
  The functions both programs compute, stated once over literal shapes.

  From three vectors of 8192 bounds and slopes the programs derive, entry by entry, two diagonal vectors and one bias
  vector (the entrywise part is carried by the kernel's own payload terms and is not restated here), and lay them out
  in two 8193 × 8193 matrices:
    • the LOWER matrix holds the diagonal vector on its diagonal, a one in the last corner (8192, 8192), zero elsewhere;
    • the UPPER matrix holds its diagonal vector on the diagonal, the bias vector along the last row (row 8192, columns
      below 8192), a one in the last corner, zero elsewhere.
  The kernel reaches them through vectors lengthened to 8320 (the diagonal followed by a one and then zeros) and 8193 (the
  bias followed by a zero); the reference writes the same entries into a zero matrix. Both are the functions below.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

abbrev S8192 : Shape := ⟨1, ![8192]⟩
abbrev S8193 : Shape := ⟨1, ![8193]⟩
abbrev S8320 : Shape := ⟨1, ![8320]⟩
abbrev S8193x8193 : Shape := ⟨2, ![8193, 8193]⟩

/-- The word of 1.0 and the word of 0.0, read at the instance. -/
abbrev one : F .f32 := FloatOps.ofBits .f32 0x3F800000#32
abbrev zero : F .f32 := FloatOps.ofBits .f32 0x00000000#32

/-- A vector of 8192 entries lengthened to 8320: the entries, then a one at position 8192, then zeros. -/
def padExt (v : FVec F S8192 .f32) : FVec F S8320 .f32 := fun j =>
  if h : (j 0).val < 8192 then v (ix1 ⟨(j 0).val, h⟩) else if (j 0).val = 8192 then one else zero

/-- A vector of 8192 entries lengthened to 8193 by a zero. -/
def biasExt (v : FVec F S8192 .f32) : FVec F S8193 .f32 := fun j =>
  if h : (j 0).val < 8192 then v (ix1 ⟨(j 0).val, h⟩) else zero

/-- The lower matrix from the lengthened diagonal: entry (r, c) is the diagonal's entry r when c = r, else zero. -/
def lowOf (p : FVec F S8320 .f32) : FVec F S8193x8193 .f32 := fun i =>
  if (i 0).val = (i 1).val then p (ix1 ⟨(i 0).val, Nat.lt_trans (i 0).isLt (by decide)⟩) else zero

/-- The upper matrix from the lengthened diagonal and the lengthened bias: the bias along row 8192 left of the corner,
    otherwise as the lower matrix. -/
def upOf (p : FVec F S8320 .f32) (b : FVec F S8193 .f32) : FVec F S8193x8193 .f32 := fun i =>
  if (i 0).val = 8192 ∧ (i 1).val < 8192 then b (ix1 (i 1))
  else if (i 0).val = (i 1).val then p (ix1 ⟨(i 0).val, Nat.lt_trans (i 0).isLt (by decide)⟩) else zero

/-- The two matrices from the vectors of 8192 entries. -/
def low (dl : FVec F S8192 .f32) : FVec F S8193x8193 .f32 := lowOf (padExt dl)
def up (du bu : FVec F S8192 .f32) : FVec F S8193x8193 .f32 := upOf (padExt du) (biasExt bu)

end Cert.Spec

end
-- ==== Proof.KHost.lean ====
/-
  The host stretch between the kernel program's two launches, read as values.

  Between the launches the host lengthens the first launch's three result vectors: the two diagonal vectors each by a
  one (a concatenation) and then by 127 further entries (a padding with the converted integer zero) to 8320 entries,
  and the bias vector by a zero to 8193 entries. Read at an index, the lengthened diagonals are the vector below 8192,
  one at 8192 and zero above, and the lengthened bias is the vector below 8192 and zero at 8192.
-/
import proofs.«149848_j47940424958601_1_alg».proof.Proof.FrameKI
import proofs.«149848_j47940424958601_1_alg».proof.Proof.Spec
import Idealize.ShloMosaic.Lib.Pipeline.Value
import Idealize.ShloMosaic.Lib.ValueIdx
import Idealize.ShloMosaic.Lib.StableHlo.Run
import Idealize.ShloMosaic.PureOps.Ideal.Laws
set_option maxRecDepth 16384

noncomputable section

namespace Cert.KValue

open Idealize.ShloMosaic Idealize.ShloMosaic.TcCoe Idealize.ShloMosaic.Tactic
open Idealize.SL Idealize.SL.Sem
open Idealize.ShloMosaic.ValueIdx
open Cert.KernelIdeal Cert.KernelIdeal.Gen Cert.KernelIdeal.GenP
open Idealize.ShloMosaic.StableHlo

/-- A padding by 127 entries at the high end, read at an index: the operand below its length, the padding value above. -/
theorem pad127_apply {α : Type} (x : S8193.Idx → α) (v : S_.Idx → α) (j : S8320.Idx) :
    pad S8320 ![0] ![127] ![0] x v pads_S8193_S8320_01270 h_S_ j
      = if h : (j 0).val < 8193 then x (ix1 ⟨(j 0).val, h⟩) else v ix0 := by
  unfold pad
  by_cases h : (j 0).val < 8193
  · rw [dif_pos h]
    have hin : ∀ a : Fin S8193.rank, (![0] : Fin 1 → Nat) a ≤ (j (a.cast pads_S8193_S8320_01270.1)).val
        ∧ ((j (a.cast pads_S8193_S8320_01270.1)).val - (![0] : Fin 1 → Nat) a) % ((![0] : Fin 1 → Nat) a + 1) = 0
        ∧ ((j (a.cast pads_S8193_S8320_01270.1)).val - (![0] : Fin 1 → Nat) a) / ((![0] : Fin 1 → Nat) a + 1) < S8193.size a := by
      intro a
      match a with
      | ⟨0, _⟩ =>
        refine ⟨Nat.zero_le _, ?_, ?_⟩
        · show ((j 0).val - 0) % (0 + 1) = 0
          omega
        · show ((j 0).val - 0) / (0 + 1) < 8193
          omega
    rw [dif_pos hin]
    refine congrArg x (funext fun a => ?_)
    match a with
    | ⟨0, _⟩ =>
      refine Fin.ext ?_
      show ((j 0).val - 0) / (0 + 1) = (j 0).val
      omega
  · rw [dif_neg h, dif_neg]
    · exact congrArg v (funext fun a => a.elim0)
    · intro hin
      have := (hin 0).2.2
      apply h
      have e : ((j 0).val - 0) / (0 + 1) < 8193 := this
      omega

/-- A vector of 8192 entries followed by one entry, read at an index. -/
theorem concat1_apply {α : Type} (x : S8192.Idx → α) (y : S1.Idx → α) (j : S8193.Idx) :
    concatenate S8193 0 [⟨S8192, x⟩, ⟨S1, y⟩] concatenates_S8192_S1_S8193_d0 j
      = if h : (j 0).val < 8192 then x (ix1 ⟨(j 0).val, h⟩) else y (ix1 0) := by
  by_cases h : (j 0).val < 8192
  · rw [dif_pos h]
    exact concatenate_pair_apply_left (0 : Fin 1) x y concatenates_S8192_S1_S8193_d0 j rfl (ix1 ⟨(j 0).val, h⟩)
      (fun b => match b with | ⟨0, _⟩ => rfl)
  · rw [dif_neg h]
    have hj : (j 0).val < 8193 := (j 0).isLt
    exact concatenate_pair_apply_right (0 : Fin 1) x y concatenates_S8192_S1_S8193_d0 j rfl rfl (ix1 0)
      (fun b hb => match b, hb with | ⟨0, _⟩, hb => absurd rfl hb)
      (by show (0 : Nat) + 8192 = (j 0).val; omega)

variable {F : FTy → Type} [FloatOps F]

/-- What the host stretch leaves in the two lengthened diagonals and the lengthened bias, from any contents `W` at its start. -/
theorem host_v7 (W : Valuation τ sig (Elt F)) :
    StableHlo.after hostOps1_3 (StableHlo.after hostOps1_2 (StableHlo.after hostOps1_1 (StableHlo.after hostOps1 W))) (Proc.devRef .tc main_v7)
      = pad S8320 ![0] ![127] ![0]
          (concatenate S8193 0 [⟨S8192, W (Proc.devRef .tc main_v0_0)⟩, ⟨S1, broadcastInDim S1 ![] bcast_S_S1 (constant (F := F) S_ .f32 0x3F800000#32)⟩] concatenates_S8192_S1_S8193_d0)
          (sitofp (F := F) .f32 (constantI S_ 32 0#32)) pads_S8193_S8320_01270 h_S_ := by
  after_results
  simp only [TRef.ofBuf, TRef.toBuf, cast_eq]

theorem host_v8 (W : Valuation τ sig (Elt F)) :
    StableHlo.after hostOps1_3 (StableHlo.after hostOps1_2 (StableHlo.after hostOps1_1 (StableHlo.after hostOps1 W))) (Proc.devRef .tc main_v8)
      = pad S8320 ![0] ![127] ![0]
          (concatenate S8193 0 [⟨S8192, W (Proc.devRef .tc main_v0_1)⟩, ⟨S1, broadcastInDim S1 ![] bcast_S_S1 (constant (F := F) S_ .f32 0x3F800000#32)⟩] concatenates_S8192_S1_S8193_d0)
          (sitofp (F := F) .f32 (constantI S_ 32 0#32)) pads_S8193_S8320_01270 h_S_ := by
  after_results
  simp only [TRef.ofBuf, TRef.toBuf, cast_eq]

theorem host_v6 (W : Valuation τ sig (Elt F)) :
    StableHlo.after hostOps1_3 (StableHlo.after hostOps1_2 (StableHlo.after hostOps1_1 (StableHlo.after hostOps1 W))) (Proc.devRef .tc main_v6)
      = concatenate S8193 0 [⟨S8192, W (Proc.devRef .tc main_v0_2)⟩, ⟨S1, broadcastInDim S1 ![] bcast_S_S1 (constant (F := F) S_ .f32 0x00000000#32)⟩] concatenates_S8192_S1_S8193_d0 := by
  after_results

/-- The bias lengthened by a zero is the specification's lengthened bias. -/
theorem biasExt_of_host (x : FVec F S8192 .f32) :
    concatenate S8193 0 [⟨S8192, x⟩, ⟨S1, broadcastInDim S1 ![] bcast_S_S1 (constant (F := F) S_ .f32 0x00000000#32)⟩] concatenates_S8192_S1_S8193_d0
      = Cert.Spec.biasExt x := by
  funext j
  rw [concat1_apply]
  unfold Cert.Spec.biasExt
  by_cases h : (j 0).val < 8192
  · rw [dif_pos h, dif_pos h]
  · rw [dif_neg h, dif_neg h]; rfl

/-- At the extended reals the converted integer zero is the zero word's value, so the diagonal lengthened by a one and
    then padded is the specification's lengthened diagonal. -/
theorem padExt_of_host (x : FVec Ideal S8192 .f32) :
    pad S8320 ![0] ![127] ![0]
        (concatenate S8193 0 [⟨S8192, x⟩, ⟨S1, broadcastInDim S1 ![] bcast_S_S1 (constant (F := Ideal) S_ .f32 0x3F800000#32)⟩] concatenates_S8192_S1_S8193_d0)
        (sitofp (F := Ideal) .f32 (constantI S_ 32 0#32)) pads_S8193_S8320_01270 h_S_
      = Cert.Spec.padExt x := by
  funext j
  rw [pad127_apply]
  unfold Cert.Spec.padExt
  by_cases h : (j 0).val < 8192
  · rw [dif_pos (by omega : (j 0).val < 8193), concat1_apply]
    rw [dif_pos h, dif_pos h]
  · rw [dif_neg h]
    by_cases h2 : (j 0).val = 8192
    · rw [dif_pos (by omega : (j 0).val < 8193), concat1_apply, dif_neg h, if_pos h2]; rfl
    · rw [dif_neg (by omega : ¬ (j 0).val < 8193), if_neg h2]
      show FloatOps.sitofp (F := Ideal) .f32 (0#32) = FloatOps.ofBits (F := Ideal) .f32 0x00000000#32
      show (((0#32 : BitVec 32).toInt : ℝ) : EReal) = Ideal.ofBits .f32 0x00000000#32
      rw [Ideal.ofBits_zero_f32]
      simp

end Cert.KValue

end
-- ==== Proof.KRegion0.lean ====
/-
  Region 0 of the kernel program: the entrywise part, on a grid of one point.

  Every window of this region is a whole vector of 8192 entries: the one grid point's block of each window is
  the window's whole array, at block index zero and uncut. The body loads the three input vectors whole and
  stores five vectors whole, each the value of one pure term of the loaded vectors. So each output array ends
  holding that term of the three input arrays as the region finds them:
    * an input block, read off its array, is the array (the block sits at offset zero and has the array's size);
    * one store through the whole buffer leaves its payload, one load through it reads the contents;
    * what the one point writes back is therefore the term's value, which is its own block of itself;
    * the one block covers every index, so the array ends at the term's value.
-/
import proofs.«149848_j47940424958601_1_alg».proof.Proof.FrameKI
import proofs.«149848_j47940424958601_1_alg».proof.Proof.Spec
import Idealize.ShloMosaic.Lib.Pipeline.Value
import Idealize.ShloMosaic.Lib.ValueIdx
import Idealize.ShloMosaic.Lib.ValueLayout

set_option maxRecDepth 16384

noncomputable section

namespace Cert.KValue

open Cert.KernelIdeal Cert.KernelIdeal.Gen Cert.KernelIdeal.GenP Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- The zero offset of a vector's whole-buffer rectangle, as the constant function. -/
theorem offset_zero : (![0] : Fin 1 → Nat) = fun _ => 0 := funext fun a => by fin_cases a; rfl

/-- Every window's block index at the grid's one point is zero. -/
theorem index_zero : ∀ t : Fin cfg0.N,
    win0_0.index t (0 : Fin 1) = 0 ∧ win0_1.index t (0 : Fin 1) = 0 ∧ win0_2.index t (0 : Fin 1) = 0
    ∧ win0_3.index t (0 : Fin 1) = 0 ∧ win0_4.index t (0 : Fin 1) = 0 ∧ win0_5.index t (0 : Fin 1) = 0
    ∧ win0_6.index t (0 : Fin 1) = 0 ∧ win0_7.index t (0 : Fin 1) = 0 :=
  (by decide +kernel : ∀ t : Fin grid0.N, _)

/-- Input window 0's block is its whole array. -/
theorem block_in0 (c : Dev nD) (t : Fin cfg0.N) : (iblk0 V c 0 t : S8192.Idx → F .f32) = V c main_arg0 := by
  funext y
  show V c main_arg0 (((cfg0.win 0).blk t).view.emb y) = V c main_arg0 y
  refine congrArg (V c main_arg0) (funext fun a => Fin.ext ?_)
  match a with
  | ⟨0, _⟩ =>
    show win0_0.index t (0 : Fin 1) * 8192 + 1 * (y 0).val = (y 0).val
    rw [(index_zero t).1]; omega

/-- Input window 1's block is its whole array. -/
theorem block_in1 (c : Dev nD) (t : Fin cfg0.N) : (iblk0 V c 1 t : S8192.Idx → F .f32) = V c main_arg1 := by
  funext y
  show V c main_arg1 (((cfg0.win 1).blk t).view.emb y) = V c main_arg1 y
  refine congrArg (V c main_arg1) (funext fun a => Fin.ext ?_)
  match a with
  | ⟨0, _⟩ =>
    show win0_1.index t (0 : Fin 1) * 8192 + 1 * (y 0).val = (y 0).val
    rw [(index_zero t).2.1]; omega

/-- Input window 2's block is its whole array. -/
theorem block_in2 (c : Dev nD) (t : Fin cfg0.N) : (iblk0 V c 2 t : S8192.Idx → F .f32) = V c main_arg2 := by
  funext y
  show V c main_arg2 (((cfg0.win 2).blk t).view.emb y) = V c main_arg2 y
  refine congrArg (V c main_arg2) (funext fun a => Fin.ext ?_)
  match a with
  | ⟨0, _⟩ =>
    show win0_2.index t (0 : Fin 1) * 8192 + 1 * (y 0).val = (y 0).val
    rw [(index_zero t).2.2.1]; omega

/-! ## Output window 3 -/

/-- What the point writes back to window 3's array is its block of the first term's value. -/
theorem flushed3 (c : Dev nD) (t : Fin cfg0.N) :
    (dat0 V c).flushed 3 t
      = ((cfg0.win 3).blk t).view.read (Elt F) (k0_pay6 (V c main_arg0) (V c main_arg1) (V c main_arg2)) := by
  show (cfg0.win 3).cut (grid0.coords t) ((dat0 V c).after 3 t) = _
  rw [after0_3]
  unfold out0_3
  rw [View.canon_unit_zero offset_zero]
  simp only [View.ld_unit_zero (S := S8192) offset_zero]
  rw [block_in0, block_in1, block_in2]
  funext y
  show k0_pay6 (V c main_arg0) (V c main_arg1) (V c main_arg2) ((cfg0.win 3).xinj (grid0.coords t) y)
    = k0_pay6 (V c main_arg0) (V c main_arg1) (V c main_arg2) (((cfg0.win 3).blk t).view.emb y)
  refine congrArg (k0_pay6 (V c main_arg0) (V c main_arg1) (V c main_arg2)) (funext fun a => Fin.ext ?_)
  match a with
  | ⟨0, _⟩ =>
    show (y 0).val = win0_3.index t (0 : Fin 1) * 8192 + 1 * (y 0).val
    rw [(index_zero t).2.2.2.1]; omega

/-- The one point's block of window 3 holds every index of the array. -/
theorem cover3 (i : S8192.Idx) :
    ∃ t : Fin cfg0.N, (cfg0.win 3).flush t = true ∧ i ∈ ((cfg0.win 3).blk t).view.set := by
  refine ⟨t0_0, flush0_3 t0_0, ?_⟩
  show i ∈ ((View.whole main_v0_0).slice (win0_3.rect t0_0)).set
  rw [View.set_slice_whole, Rect.mem_set_unit]
  intro a
  match a with
  | ⟨0, _⟩ =>
    show win0_3.index t0_0 (0 : Fin 1) * 8192 ≤ (i 0).val ∧ (i 0).val < win0_3.index t0_0 (0 : Fin 1) * 8192 + 8192
    have hi : (i 0).val < 8192 := (i 0).isLt
    rw [(index_zero t0_0).2.2.2.1]; omega

/-- Window 3's array after the region: the first term's value, a function of all three inputs. -/
theorem region0_out3 (c : Dev nD) :
    (GenP.dat0 V c).arrAt 3 cfg0.N = k0_pay6 (V c main_arg0) (V c main_arg1) (V c main_arg2) :=
  (dat0 V c).arrAt_eq_of_cover 3 _ (fun t _ => flushed3 V c t) cover3

/-! ## Output window 4 -/

/-- What the point writes back to window 4's array is its block of the second term's value, a function of inputs 0 and 1. -/
theorem flushed4 (c : Dev nD) (t : Fin cfg0.N) :
    (dat0 V c).flushed 4 t
      = ((cfg0.win 4).blk t).view.read (Elt F) (k0_pay7 (V c main_arg0) (V c main_arg1)) := by
  show (cfg0.win 4).cut (grid0.coords t) ((dat0 V c).after 4 t) = _
  rw [after0_4]
  unfold out0_4
  rw [View.canon_unit_zero offset_zero]
  simp only [View.ld_unit_zero (S := S8192) offset_zero]
  rw [block_in0, block_in1]
  funext y
  show k0_pay7 (V c main_arg0) (V c main_arg1) ((cfg0.win 4).xinj (grid0.coords t) y)
    = k0_pay7 (V c main_arg0) (V c main_arg1) (((cfg0.win 4).blk t).view.emb y)
  refine congrArg (k0_pay7 (V c main_arg0) (V c main_arg1)) (funext fun a => Fin.ext ?_)
  match a with
  | ⟨0, _⟩ =>
    show (y 0).val = win0_4.index t (0 : Fin 1) * 8192 + 1 * (y 0).val
    rw [(index_zero t).2.2.2.2.1]; omega

/-- The one point's block of window 4 holds every index of the array. -/
theorem cover4 (i : S8192.Idx) :
    ∃ t : Fin cfg0.N, (cfg0.win 4).flush t = true ∧ i ∈ ((cfg0.win 4).blk t).view.set := by
  refine ⟨t0_0, flush0_4 t0_0, ?_⟩
  show i ∈ ((View.whole main_v0_1).slice (win0_4.rect t0_0)).set
  rw [View.set_slice_whole, Rect.mem_set_unit]
  intro a
  match a with
  | ⟨0, _⟩ =>
    show win0_4.index t0_0 (0 : Fin 1) * 8192 ≤ (i 0).val ∧ (i 0).val < win0_4.index t0_0 (0 : Fin 1) * 8192 + 8192
    have hi : (i 0).val < 8192 := (i 0).isLt
    rw [(index_zero t0_0).2.2.2.2.1]; omega

/-- Window 4's array after the region: the second term's value, a function of inputs 0 and 1. -/
theorem region0_out4 (c : Dev nD) :
    (GenP.dat0 V c).arrAt 4 cfg0.N = k0_pay7 (V c main_arg0) (V c main_arg1) :=
  (dat0 V c).arrAt_eq_of_cover 4 _ (fun t _ => flushed4 V c t) cover4

/-! ## Output window 5 -/

/-- What the point writes back to window 5's array is its block of the third term's value, a function of inputs 0 and 1. -/
theorem flushed5 (c : Dev nD) (t : Fin cfg0.N) :
    (dat0 V c).flushed 5 t
      = ((cfg0.win 5).blk t).view.read (Elt F) (k0_pay8 (V c main_arg0) (V c main_arg1)) := by
  show (cfg0.win 5).cut (grid0.coords t) ((dat0 V c).after 5 t) = _
  rw [after0_5]
  unfold out0_5
  rw [View.canon_unit_zero offset_zero]
  simp only [View.ld_unit_zero (S := S8192) offset_zero]
  rw [block_in0, block_in1]
  funext y
  show k0_pay8 (V c main_arg0) (V c main_arg1) ((cfg0.win 5).xinj (grid0.coords t) y)
    = k0_pay8 (V c main_arg0) (V c main_arg1) (((cfg0.win 5).blk t).view.emb y)
  refine congrArg (k0_pay8 (V c main_arg0) (V c main_arg1)) (funext fun a => Fin.ext ?_)
  match a with
  | ⟨0, _⟩ =>
    show (y 0).val = win0_5.index t (0 : Fin 1) * 8192 + 1 * (y 0).val
    rw [(index_zero t).2.2.2.2.2.1]; omega

/-- The one point's block of window 5 holds every index of the array. -/
theorem cover5 (i : S8192.Idx) :
    ∃ t : Fin cfg0.N, (cfg0.win 5).flush t = true ∧ i ∈ ((cfg0.win 5).blk t).view.set := by
  refine ⟨t0_0, flush0_5 t0_0, ?_⟩
  show i ∈ ((View.whole main_v0_2).slice (win0_5.rect t0_0)).set
  rw [View.set_slice_whole, Rect.mem_set_unit]
  intro a
  match a with
  | ⟨0, _⟩ =>
    show win0_5.index t0_0 (0 : Fin 1) * 8192 ≤ (i 0).val ∧ (i 0).val < win0_5.index t0_0 (0 : Fin 1) * 8192 + 8192
    have hi : (i 0).val < 8192 := (i 0).isLt
    rw [(index_zero t0_0).2.2.2.2.2.1]; omega

/-- Window 5's array after the region: the third term's value, a function of inputs 0 and 1. -/
theorem region0_out5 (c : Dev nD) :
    (GenP.dat0 V c).arrAt 5 cfg0.N = k0_pay8 (V c main_arg0) (V c main_arg1) :=
  (dat0 V c).arrAt_eq_of_cover 5 _ (fun t _ => flushed5 V c t) cover5

/-! ## Output window 6 -/

/-- What the point writes back to window 6's array is its block of the fourth term's value, a function of all three inputs. -/
theorem flushed6 (c : Dev nD) (t : Fin cfg0.N) :
    (dat0 V c).flushed 6 t
      = ((cfg0.win 6).blk t).view.read (Elt F) (k0_pay9 (V c main_arg0) (V c main_arg1) (V c main_arg2)) := by
  show (cfg0.win 6).cut (grid0.coords t) ((dat0 V c).after 6 t) = _
  rw [after0_6]
  unfold out0_6
  rw [View.canon_unit_zero offset_zero]
  simp only [View.ld_unit_zero (S := S8192) offset_zero]
  rw [block_in0, block_in1, block_in2]
  funext y
  show k0_pay9 (V c main_arg0) (V c main_arg1) (V c main_arg2) ((cfg0.win 6).xinj (grid0.coords t) y)
    = k0_pay9 (V c main_arg0) (V c main_arg1) (V c main_arg2) (((cfg0.win 6).blk t).view.emb y)
  refine congrArg (k0_pay9 (V c main_arg0) (V c main_arg1) (V c main_arg2)) (funext fun a => Fin.ext ?_)
  match a with
  | ⟨0, _⟩ =>
    show (y 0).val = win0_6.index t (0 : Fin 1) * 8192 + 1 * (y 0).val
    rw [(index_zero t).2.2.2.2.2.2.1]; omega

/-- The one point's block of window 6 holds every index of the array. -/
theorem cover6 (i : S8192.Idx) :
    ∃ t : Fin cfg0.N, (cfg0.win 6).flush t = true ∧ i ∈ ((cfg0.win 6).blk t).view.set := by
  refine ⟨t0_0, flush0_6 t0_0, ?_⟩
  show i ∈ ((View.whole main_v0_3).slice (win0_6.rect t0_0)).set
  rw [View.set_slice_whole, Rect.mem_set_unit]
  intro a
  match a with
  | ⟨0, _⟩ =>
    show win0_6.index t0_0 (0 : Fin 1) * 8192 ≤ (i 0).val ∧ (i 0).val < win0_6.index t0_0 (0 : Fin 1) * 8192 + 8192
    have hi : (i 0).val < 8192 := (i 0).isLt
    rw [(index_zero t0_0).2.2.2.2.2.2.1]; omega

/-- Window 6's array after the region: the fourth term's value, a function of all three inputs. -/
theorem region0_out6 (c : Dev nD) :
    (GenP.dat0 V c).arrAt 6 cfg0.N = k0_pay9 (V c main_arg0) (V c main_arg1) (V c main_arg2) :=
  (dat0 V c).arrAt_eq_of_cover 6 _ (fun t _ => flushed6 V c t) cover6

/-! ## Output window 7 -/

/-- What the point writes back to window 7's array is its block of the fifth term's value, a function of input 1 and the zero word. -/
theorem flushed7 (c : Dev nD) (t : Fin cfg0.N) :
    (dat0 V c).flushed 7 t
      = ((cfg0.win 7).blk t).view.read (Elt F) (k0_pay1 (V c main_arg1) (Scalar.ofBits .f32 0x00000000#32)) := by
  show (cfg0.win 7).cut (grid0.coords t) ((dat0 V c).after 7 t) = _
  rw [after0_7]
  unfold out0_7
  rw [View.canon_unit_zero offset_zero]
  simp only [View.ld_unit_zero (S := S8192) offset_zero]
  rw [block_in1]
  funext y
  show k0_pay1 (V c main_arg1) (Scalar.ofBits .f32 0x00000000#32) ((cfg0.win 7).xinj (grid0.coords t) y)
    = k0_pay1 (V c main_arg1) (Scalar.ofBits .f32 0x00000000#32) (((cfg0.win 7).blk t).view.emb y)
  refine congrArg (k0_pay1 (V c main_arg1) (Scalar.ofBits .f32 0x00000000#32)) (funext fun a => Fin.ext ?_)
  match a with
  | ⟨0, _⟩ =>
    show (y 0).val = win0_7.index t (0 : Fin 1) * 8192 + 1 * (y 0).val
    rw [(index_zero t).2.2.2.2.2.2.2]; omega

/-- The one point's block of window 7 holds every index of the array. -/
theorem cover7 (i : S8192.Idx) :
    ∃ t : Fin cfg0.N, (cfg0.win 7).flush t = true ∧ i ∈ ((cfg0.win 7).blk t).view.set := by
  refine ⟨t0_0, flush0_7 t0_0, ?_⟩
  show i ∈ ((View.whole main_v0_4).slice (win0_7.rect t0_0)).set
  rw [View.set_slice_whole, Rect.mem_set_unit]
  intro a
  match a with
  | ⟨0, _⟩ =>
    show win0_7.index t0_0 (0 : Fin 1) * 8192 ≤ (i 0).val ∧ (i 0).val < win0_7.index t0_0 (0 : Fin 1) * 8192 + 8192
    have hi : (i 0).val < 8192 := (i 0).isLt
    rw [(index_zero t0_0).2.2.2.2.2.2.2]; omega

/-- Window 7's array after the region: the fifth term's value, a function of input 1 and the zero word. -/
theorem region0_out7 (c : Dev nD) :
    (GenP.dat0 V c).arrAt 7 cfg0.N = k0_pay1 (V c main_arg1) (Scalar.ofBits .f32 0x00000000#32) :=
  (dat0 V c).arrAt_eq_of_cover 7 _ (fun t _ => flushed7 V c t) cover7

end Cert.KValue

end
-- ==== Proof.KRegion1.lean ====
/-
  Region 1 of the kernel: the two 8193 × 8193 matrices, built in blocks of 128 rows.

  The region runs over 65 points. Point `t` reads entries 128 t … 128 t + 127 of each of the two diagonal vectors
  (of 8320 entries) and the whole bias vector (of 8193 entries), and computes the 128 × 8193 block of rows
  128 t … 128 t + 127 of each matrix: for the lower matrix, at (p, q), the first diagonal vector's entry p where
  q = 128 t + p and zero elsewhere; for the upper matrix the same from the second diagonal vector, except that on
  row 8192, in the columns below 8192, it holds the bias vector's entry q. The last point's block reaches past the
  matrix: only its first row, row 8192, is written back.

  Proved here: whatever the buffers hold when the region is entered, the two matrices end holding the
  specification's lower and upper matrices of the two diagonal vectors and the bias vector as the region finds them.
  The steps: the blocks' entries read at an index (integer comparisons of numbers below 2^31 are comparisons of
  naturals); the block each input window reads at a point; what a point writes back is its rows of ONE matrix;
  every row r is written by point r / 128.
-/
import proofs.«149848_j47940424958601_1_alg».proof.Proof.FrameKI
import proofs.«149848_j47940424958601_1_alg».proof.Proof.Spec
import Idealize.ShloMosaic.Lib.Pipeline.Value
import Idealize.ShloMosaic.Lib.ValueIdx
import Idealize.ShloMosaic.Lib.ValueLayout

set_option maxRecDepth 16384

noncomputable section

namespace Cert.KRegion1

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP Idealize.ShloMosaic.ValueIdx

variable {F : FTy → Type} [FloatOps F]

/-! ## Words below 2^31 -/

theorem ofNat_inj_of_lt {a b : Nat} (ha : a < 2 ^ 32) (hb : b < 2 ^ 32) : BitVec.ofNat 32 a = BitVec.ofNat 32 b ↔ a = b := by
  constructor
  · intro e
    have := congrArg BitVec.toNat e
    rw [BitVec.toNat_ofNat, BitVec.toNat_ofNat, Nat.mod_eq_of_lt ha, Nat.mod_eq_of_lt hb] at this
    exact this
  · intro e; rw [e]

theorem cmpi_eq_ofNat {a b : Nat} (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · rw [if_neg h]
    have hne : ¬ BitVec.ofNat 32 a = BitVec.ofNat 32 b := fun e => h ((ofNat_inj_of_lt ha hb).mp e)
    have hbq : (BitVec.ofNat 32 a == BitVec.ofNat 32 b) = false := beq_eq_false_iff_ne.mpr hne
    show BitVec.ofBool (BitVec.ofNat 32 a == BitVec.ofNat 32 b) = 0#1
    rw [hbq]; rfl

theorem toInt_ofNat_of_lt {a : Nat} (ha : a < 2 ^ 31) : (BitVec.ofNat 32 a).toInt = (a : Int) := by
  rw [BitVec.toInt_eq_toNat_of_lt (by rw [BitVec.toNat_ofNat, Nat.mod_eq_of_lt (by omega)]; omega), BitVec.toNat_ofNat, Nat.mod_eq_of_lt (by omega)]

theorem cmpi_slt_ofNat {a b : Nat} (ha : a < 2 ^ 31) (hb : b < 2 ^ 31) :
    IntOp.cmpi .slt (BitVec.ofNat 32 a) (BitVec.ofNat 32 b) = if a < b then 1#1 else 0#1 := by
  unfold IntOp.cmpi
  show BitVec.ofBool ((BitVec.ofNat 32 a).slt (BitVec.ofNat 32 b)) = _
  unfold BitVec.slt
  rw [toInt_ofNat_of_lt ha, toInt_ofNat_of_lt hb]
  by_cases h : a < b
  · rw [if_pos h, decide_eq_true (by exact_mod_cast h)]; rfl
  · rw [if_neg h, decide_eq_false (by exact_mod_cast h)]; rfl

/-! ## A column of values: the cast of a vector to one column, and one column repeated along the rows -/

section Column
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The payloads at an index -/

/-- The row number of entry `(p, q)` of the block at grid coordinate `i`, as a word. -/
theorem row_apply (i : grid1.Coords) (p : Fin 128) (q : Fin 8193) :
    k1_pay1 i (ix2 p q) = BitVec.ofNat 32 (p.val + (i 0).val * 128) := by
  unfold k1_pay1
  show IntOp.addi (iota .tc S128x8193 32 [0] iota_S128x8193_d0_w32 (ix2 p q)) (Scalar.muli (BitVec.ofNat 32 (i 0).val) 128#32) = _
  rw [iota_single_apply]
  show BitVec.ofNat 32 p.val + BitVec.ofNat 32 (i 0).val * BitVec.ofNat 32 128 = _
  rw [← BitVec.ofNat_mul, ← BitVec.ofNat_add]

/-- The diagonal test at entry `(p, q)`: the column is the row. -/
theorem diag_apply (i : grid1.Coords) (hi : (i 0).val < 65) (p : Fin 128) (q : Fin 8193) :
    k1_pay2 i (ix2 p q) = if q.val = p.val + (i 0).val * 128 then 1#1 else 0#1 := by
  unfold k1_pay2
  show IntOp.cmpi .eq (iota .tc S128x8193 32 [1] iota_S128x8193_d1_w32 (ix2 p q)) (k1_pay1 i (ix2 p q)) = _
  rw [iota_single_apply, row_apply]
  show IntOp.cmpi .eq (BitVec.ofNat 32 q.val) (BitVec.ofNat 32 (p.val + (i 0).val * 128)) = _
  exact cmpi_eq_ofNat (by have := q.isLt; omega) (by have := p.isLt; omega)

/-- The lower block at entry `(p, q)`: the diagonal vector's entry on the diagonal, zero elsewhere. -/
theorem pay3_apply (i : grid1.Coords) (hi : (i 0).val < 65) (x0 : Vec F S128 .f32) (p : Fin 128) (q : Fin 8193) :
    k1_pay3 i x0 (ix2 p q) = if q.val = p.val + (i 0).val * 128 then x0 (ix1 p) else Cert.Spec.zero := by
  unfold k1_pay3
  show Scalar.select (k1_pay2 i (ix2 p q)) (broadcastTo S128x8193 (shapeCast S128x1 (shapeCast S128x1 (shapeCast S128 x0 shapeCasts_S128_S128) shapeCasts_S128_S128x1) shapeCasts_S128x1_S128x1) broadcasts_S128x1_S128x8193 (ix2 p q)) (Scalar.ofBits .f32 0#32) = _
  rw [diag_apply i hi, broadcastTo_a1_ab_apply, shapeCast_self, shapeCast_a_a1_apply, shapeCast_self]
  split
  · exact select_one _ _
  · exact select_zero _ _

/-! ## The upper block at an index -/

theorem andi_ite (A B : Prop) [Decidable A] [Decidable B] :
    IntOp.andi (if A then 1#1 else 0#1) (if B then 1#1 else 0#1) = if A ∧ B then 1#1 else 0#1 := by
  unfold IntOp.andi; by_cases hA : A <;> by_cases hB : B <;> simp [hA, hB]

theorem select_ite {α : Type} (A : Prop) [Decidable A] (a b : α) :
    Scalar.select (if A then 1#1 else 0#1) a b = if A then a else b := by
  split
  · exact select_one _ _
  · exact select_zero _ _

/-- The upper block at entry `(p, q)`: the bias vector's entry `q` on row 8192 left of the corner; otherwise the diagonal
    vector's entry on the diagonal, zero elsewhere. -/
theorem pay4_apply (i : grid1.Coords) (hi : (i 0).val < 65) (x1 : Vec F S128 .f32) (x2 : Vec F S8193 .f32) (p : Fin 128) (q : Fin 8193) :
    k1_pay4 i x1 x2 (ix2 p q) = if p.val + (i 0).val * 128 = 8192 ∧ q.val < 8192 then x2 (ix1 q)
      else if q.val = p.val + (i 0).val * 128 then x1 (ix1 p) else Cert.Spec.zero := by
  unfold k1_pay4
  show Scalar.select (IntOp.andi (IntOp.cmpi .eq (k1_pay1 i (ix2 p q)) 8192#32) (IntOp.cmpi .slt (iota .tc S128x8193 32 [1] iota_S128x8193_d1_w32 (ix2 p q)) 8192#32))
      (broadcastTo S128x8193 (shapeCast S1x8193 (shapeCast S1x8193 (shapeCast S8193 x2 shapeCasts_S8193_S8193) shapeCasts_S8193_S1x8193) shapeCasts_S1x8193_S1x8193) broadcasts_S1x8193_S128x8193 (ix2 p q))
      (Scalar.select (k1_pay2 i (ix2 p q)) (broadcastTo S128x8193 (shapeCast S128x1 (shapeCast S128x1 (shapeCast S128 x1 shapeCasts_S128_S128) shapeCasts_S128_S128x1) shapeCasts_S128x1_S128x1) broadcasts_S128x1_S128x8193 (ix2 p q)) (Scalar.ofBits .f32 0#32)) = _
  rw [row_apply, iota_single_apply, diag_apply i hi, broadcastTo_1b_ab_apply, broadcastTo_a1_ab_apply]
  simp only [shapeCast_self]
  rw [shapeCast_a_1a_apply, shapeCast_a_a1_apply]
  show Scalar.select (IntOp.andi (IntOp.cmpi .eq (BitVec.ofNat 32 (p.val + (i 0).val * 128)) (BitVec.ofNat 32 8192)) (IntOp.cmpi .slt (BitVec.ofNat 32 q.val) (BitVec.ofNat 32 8192)))
      (x2 (ix1 q)) (Scalar.select (if q.val = p.val + (i 0).val * 128 then 1#1 else 0#1) (x1 (ix1 p)) Cert.Spec.zero) = _
  rw [cmpi_eq_ofNat (by have := p.isLt; omega) (by omega), cmpi_slt_ofNat (by have := q.isLt; omega) (by omega), andi_ite, select_ite, select_ite]

/-- The upper block at any index of the block. -/
theorem pay4_at (i : grid1.Coords) (hi : (i 0).val < 65) (x1 : Vec F S128 .f32) (x2 : Vec F S8193 .f32) (j : S128x8193.Idx) :
    k1_pay4 i x1 x2 j = if (j 0).val + (i 0).val * 128 = 8192 ∧ (j 1).val < 8192 then x2 (ix1 (j 1))
      else if (j 1).val = (j 0).val + (i 0).val * 128 then x1 (ix1 (j 0)) else Cert.Spec.zero := by
  obtain ⟨p, q, rfl⟩ : ∃ (p : Fin 128) (q : Fin 8193), j = ix2 p q := ⟨j 0, j 1, eq_ix2 j⟩
  exact pay4_apply i hi x1 x2 p q

/-! ## The index maps over the grid -/

theorem hz1 : (![0] : Fin 1 → Nat) = fun _ => 0 := funext fun a => by fin_cases a; rfl
theorem hz2 : (![0, 0] : Fin 2 → Nat) = fun _ => 0 := funext fun a => by fin_cases a <;> rfl

/-- Point `t` reads block `t` of each diagonal vector and the whole bias vector, and writes block `(t, 0)` of each matrix. -/
theorem idx_facts : ∀ t : Fin cfg1.N,
    win1_0.index t (0 : Fin 1) = t.val ∧ win1_1.index t (0 : Fin 1) = t.val ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ (grid1.coords t 0).val = t.val :=
  (by decide +kernel : ∀ t : Fin grid1.N, _)

/-- What a write-back moves: all 128 rows of a block but at the last point, whose block has one row inside the matrix. -/
theorem xsize_facts : ∀ t : Fin cfg1.N,
    win1_3.xsize (grid1.coords t) (0 : Fin 2) = (if t.val < 64 then 128 else 1) ∧ win1_3.xsize (grid1.coords t) (1 : Fin 2) = 8193
    ∧ win1_4.xsize (grid1.coords t) (0 : Fin 2) = (if t.val < 64 then 128 else 1) ∧ win1_4.xsize (grid1.coords t) (1 : Fin 2) = 8193 :=
  (by decide +kernel : ∀ t : Fin grid1.N, _)

section Blocks
variable (V : (c : Dev nD) → (b : Ref sig .tc) → Buf (Elt F) ((c : Thread nD τ).loc b))

/-! ## The input blocks -/

/-- Entry `p` of the first diagonal vector's block at point `t` is the vector's entry `128 t + p`. -/
theorem iblk1_0_apply (c : Dev nD) (t : Fin cfg1.N) (p : Fin 128) (k : Fin 8320) (hk : k.val = t.val * 128 + p.val) :
    iblk1 V c 0 t (ix1 p) = V c main_v7 (ix1 k) := by
  show V c main_v7 (((cfg1.win 0).blk t).view.emb (ix1 p)) = V c main_v7 (ix1 k)
  refine congrArg (V c main_v7) (funext fun a => Fin.ext ?_)
  match a with
  | ⟨0, _⟩ =>
    show win1_0.index t (0 : Fin 1) * 128 + 1 * p.val = k.val
    rw [(idx_facts t).1, hk]; omega

/-- Entry `p` of the second diagonal vector's block at point `t` is the vector's entry `128 t + p`. -/
theorem iblk1_1_apply (c : Dev nD) (t : Fin cfg1.N) (p : Fin 128) (k : Fin 8320) (hk : k.val = t.val * 128 + p.val) :
    iblk1 V c 1 t (ix1 p) = V c main_v8 (ix1 k) := by
  show V c main_v8 (((cfg1.win 1).blk t).view.emb (ix1 p)) = V c main_v8 (ix1 k)
  refine congrArg (V c main_v8) (funext fun a => Fin.ext ?_)
  match a with
  | ⟨0, _⟩ =>
    show win1_1.index t (0 : Fin 1) * 128 + 1 * p.val = k.val
    rw [(idx_facts t).2.1, hk]; omega

/-- The bias vector's block at every point is the whole vector. -/
theorem iblk1_2_apply (c : Dev nD) (t : Fin cfg1.N) (q : Fin 8193) (k : Fin 8193) (hk : k.val = q.val) :
    iblk1 V c 2 t (ix1 q) = V c main_v6 (ix1 k) := by
  show V c main_v6 (((cfg1.win 2).blk t).view.emb (ix1 q)) = V c main_v6 (ix1 k)
  refine congrArg (V c main_v6) (funext fun a => Fin.ext ?_)
  match a with
  | ⟨0, _⟩ =>
    show win1_2.index t (0 : Fin 1) * 8193 + 1 * q.val = k.val
    rw [(idx_facts t).2.2.1, hk]; omega

/-! ## What a point writes back to the lower matrix -/

/-- The lower block at any index of the block. -/
theorem pay3_at (i : grid1.Coords) (hi : (i 0).val < 65) (x0 : Vec F S128 .f32) (j : S128x8193.Idx) :
    k1_pay3 i x0 j = if (j 1).val = (j 0).val + (i 0).val * 128 then x0 (ix1 (j 0)) else Cert.Spec.zero := by
  obtain ⟨p, q, rfl⟩ : ∃ (p : Fin 128) (q : Fin 8193), j = ix2 p q := ⟨j 0, j 1, eq_ix2 j⟩
  exact pay3_apply i hi x0 p q

/-- Point `t` writes back its rows of the lower matrix. -/
theorem flushed3_eq (c : Dev nD) (t : Fin cfg1.N) :
    (dat1 V c).flushed 3 t = ((cfg1.win 3).blk t).view.read (Elt F) (Cert.Spec.lowOf (V c main_v7)) := by
  show (cfg1.win 3).cut (grid1.coords t) ((dat1 V c).after 3 t) = _
  rw [after1_3]
  unfold out1_3
  rw [View.canon_unit_zero hz2]
  simp only [View.ld_unit_zero (S := S128) hz1]
  obtain ⟨e0, e1, e2, e3, e4, e5, e6, e7⟩ := idx_facts t
  have ht : t.val < 65 := by have := t.isLt; have hN : cfg1.N = 65 := Gen.N_1; omega
  funext y
  show k1_pay3 (grid1.coords t) (iblk1 V c 0 t) ((cfg1.win 3).xinj (grid1.coords t) y) = Cert.Spec.lowOf (V c main_v7) (((cfg1.win 3).blk t).view.emb y)
  rw [pay3_at _ (by rw [e7]; exact ht)]
  unfold Cert.Spec.lowOf
  have h0 : ((((cfg1.win 3).blk t).view.emb y) 0).val = t.val * 128 + (y 0).val := by
    show win1_3.index t (0 : Fin 2) * 128 + 1 * (y 0).val = _
    rw [e3]; omega
  have h1 : ((((cfg1.win 3).blk t).view.emb y) 1).val = (y 1).val := by
    show win1_3.index t (1 : Fin 2) * 8193 + 1 * (y 1).val = _
    rw [e4]; omega
  refine if_congr ?_ ?_ rfl
  · show (y 1).val = (y 0).val + (grid1.coords t 0).val * 128 ↔ _
    rw [h0, h1, e7]; omega
  · exact iblk1_0_apply V c t _ _ h0

/-! ## The rows the points' blocks cover -/

/-- An entry of the matrix is in point `t`'s block of the lower matrix iff each coordinate is in the block's range inside the matrix. -/
theorem mem_blk3 (t : Fin cfg1.N) (i : S8193x8193.Idx) :
    i ∈ ((cfg1.win 3).blk t).view.set ↔ ∀ a : Fin 2, win1_3.index t a * S128x8193.size a ≤ (i a).val
      ∧ (i a).val < win1_3.index t a * S128x8193.size a + win1_3.xsize (grid1.coords t) a := by
  show i ∈ ((View.whole main_v9_0).slice (win1_3.rect t)).set ↔ _
  rw [View.set_slice_whole, Rect.mem_set_unit]
  exact Iff.rfl

/-- Row `r` is written by point `r / 128`: the last row, 8192, by the last point, whose block has that one row inside the matrix. -/
theorem cover3 (i : S8193x8193.Idx) : ∃ t : Fin cfg1.N, (cfg1.win 3).flush t = true ∧ i ∈ ((cfg1.win 3).blk t).view.set := by
  have hr : (i 0).val < 8193 := (i 0).isLt
  have hc : (i 1).val < 8193 := (i 1).isLt
  have hN : cfg1.N = 65 := Gen.N_1
  obtain ⟨t, htv⟩ : ∃ t : Fin cfg1.N, t.val = (i 0).val / 128 := ⟨⟨(i 0).val / 128, by omega⟩, rfl⟩
  refine ⟨t, flush1_3 t, ?_⟩
  rw [mem_blk3]
  obtain ⟨e0, e1, e2, e3, e4, e5, e6, e7⟩ := idx_facts t
  obtain ⟨x0, x1, x2, x3⟩ := xsize_facts t
  intro a
  match a with
  | ⟨0, _⟩ =>
    show win1_3.index t (0 : Fin 2) * 128 ≤ (i 0).val ∧ (i 0).val < win1_3.index t (0 : Fin 2) * 128 + win1_3.xsize (grid1.coords t) (0 : Fin 2)
    rw [e3, x0, htv]; split <;> omega
  | ⟨1, _⟩ =>
    show win1_3.index t (1 : Fin 2) * 8193 ≤ (i 1).val ∧ (i 1).val < win1_3.index t (1 : Fin 2) * 8193 + win1_3.xsize (grid1.coords t) (1 : Fin 2)
    rw [e4, x1]; omega

/-- THE LOWER MATRIX after the region: the diagonal vector on the diagonal, zero elsewhere. -/
theorem region1_out3 (c : Dev nD) : (GenP.dat1 V c).arrAt 3 cfg1.N = Cert.Spec.lowOf (V c main_v7) :=
  (dat1 V c).arrAt_eq_of_cover 3 (Cert.Spec.lowOf (V c main_v7)) (fun t _ => flushed3_eq V c t) cover3

/-! ## What a point writes back to the upper matrix -/

/-- Point `t` writes back its rows of the upper matrix. -/
theorem flushed4_eq (c : Dev nD) (t : Fin cfg1.N) :
    (dat1 V c).flushed 4 t = ((cfg1.win 4).blk t).view.read (Elt F) (Cert.Spec.upOf (V c main_v8) (V c main_v6)) := by
  show (cfg1.win 4).cut (grid1.coords t) ((dat1 V c).after 4 t) = _
  rw [after1_4]
  unfold out1_4
  rw [View.canon_unit_zero hz2]
  simp only [View.ld_unit_zero (S := S128) hz1, View.ld_unit_zero (S := S8193) hz1]
  obtain ⟨e0, e1, e2, e3, e4, e5, e6, e7⟩ := idx_facts t
  have ht : t.val < 65 := by have := t.isLt; have hN : cfg1.N = 65 := Gen.N_1; omega
  funext y
  show k1_pay4 (grid1.coords t) (iblk1 V c 1 t) (iblk1 V c 2 t) ((cfg1.win 4).xinj (grid1.coords t) y)
    = Cert.Spec.upOf (V c main_v8) (V c main_v6) (((cfg1.win 4).blk t).view.emb y)
  rw [pay4_at _ (by rw [e7]; exact ht)]
  unfold Cert.Spec.upOf
  have h0 : ((((cfg1.win 4).blk t).view.emb y) 0).val = t.val * 128 + (y 0).val := by
    show win1_4.index t (0 : Fin 2) * 128 + 1 * (y 0).val = _
    rw [e5]; omega
  have h1 : ((((cfg1.win 4).blk t).view.emb y) 1).val = (y 1).val := by
    show win1_4.index t (1 : Fin 2) * 8193 + 1 * (y 1).val = _
    rw [e6]; omega
  refine if_congr ?_ ?_ (if_congr ?_ ?_ rfl)
  · show (y 0).val + (grid1.coords t 0).val * 128 = 8192 ∧ (y 1).val < 8192 ↔ _
    rw [h0, h1, e7]; omega
  · exact iblk1_2_apply V c t _ _ h1
  · show (y 1).val = (y 0).val + (grid1.coords t 0).val * 128 ↔ _
    rw [h0, h1, e7]; omega
  · exact iblk1_1_apply V c t _ _ h0

/-- An entry of the matrix is in point `t`'s block of the upper matrix iff each coordinate is in the block's range inside the matrix. -/
theorem mem_blk4 (t : Fin cfg1.N) (i : S8193x8193.Idx) :
    i ∈ ((cfg1.win 4).blk t).view.set ↔ ∀ a : Fin 2, win1_4.index t a * S128x8193.size a ≤ (i a).val
      ∧ (i a).val < win1_4.index t a * S128x8193.size a + win1_4.xsize (grid1.coords t) a := by
  show i ∈ ((View.whole main_v9_1).slice (win1_4.rect t)).set ↔ _
  rw [View.set_slice_whole, Rect.mem_set_unit]
  exact Iff.rfl

/-- Row `r` of the upper matrix is written by point `r / 128`. -/
theorem cover4 (i : S8193x8193.Idx) : ∃ t : Fin cfg1.N, (cfg1.win 4).flush t = true ∧ i ∈ ((cfg1.win 4).blk t).view.set := by
  have hr : (i 0).val < 8193 := (i 0).isLt
  have hc : (i 1).val < 8193 := (i 1).isLt
  have hN : cfg1.N = 65 := Gen.N_1
  obtain ⟨t, htv⟩ : ∃ t : Fin cfg1.N, t.val = (i 0).val / 128 := ⟨⟨(i 0).val / 128, by omega⟩, rfl⟩
  refine ⟨t, flush1_4 t, ?_⟩
  rw [mem_blk4]
  obtain ⟨e0, e1, e2, e3, e4, e5, e6, e7⟩ := idx_facts t
  obtain ⟨x0, x1, x2, x3⟩ := xsize_facts t
  intro a
  match a with
  | ⟨0, _⟩ =>
    show win1_4.index t (0 : Fin 2) * 128 ≤ (i 0).val ∧ (i 0).val < win1_4.index t (0 : Fin 2) * 128 + win1_4.xsize (grid1.coords t) (0 : Fin 2)
    rw [e5, x2, htv]; split <;> omega
  | ⟨1, _⟩ =>
    show win1_4.index t (1 : Fin 2) * 8193 ≤ (i 1).val ∧ (i 1).val < win1_4.index t (1 : Fin 2) * 8193 + win1_4.xsize (grid1.coords t) (1 : Fin 2)
    rw [e6, x3]; omega

/-- THE UPPER MATRIX after the region: the bias vector along row 8192 left of the corner, the diagonal vector on the
    diagonal, zero elsewhere. -/
theorem region1_out4 (c : Dev nD) : (GenP.dat1 V c).arrAt 4 cfg1.N = Cert.Spec.upOf (V c main_v8) (V c main_v6) :=
  (dat1 V c).arrAt_eq_of_cover 4 (Cert.Spec.upOf (V c main_v8) (V c main_v6)) (fun t _ => flushed4_eq V c t) cover4

end Blocks

end Cert.KRegion1

end
-- ==== Proof.KValue.lean ====
/-
  The idealized kernel program's run with its four results named.

  The run ends with every buffer at the contents the frame's fold computes. The two vector results are outputs of the
  first launch that nothing later writes: they hold the first launch's payloads of the three argument vectors. The two
  matrix results are the second launch's outputs: the lower and upper matrices of the lengthened diagonals and bias,
  which the host stretch makes from the first launch's other three outputs. So each result is the specification's
  function of the arguments.
-/
import proofs.«149848_j47940424958601_1_alg».proof.Proof.FrameKI
import proofs.«149848_j47940424958601_1_alg».proof.Proof.Spec
import proofs.«149848_j47940424958601_1_alg».proof.Proof.KHost
import proofs.«149848_j47940424958601_1_alg».proof.Proof.KRegion0
import proofs.«149848_j47940424958601_1_alg».proof.Proof.KRegion1
set_option maxRecDepth 16384

noncomputable section

namespace Cert.KValue

open Idealize.ShloMosaic Idealize.ShloMosaic.TcCoe Idealize.ShloMosaic.Tactic
open Idealize.SL Idealize.SL.Sem
open Idealize.ShloMosaic.ValueIdx
open Cert.KernelIdeal Cert.KernelIdeal.Gen Cert.KernelIdeal.GenP
open Idealize.ShloMosaic.StableHlo

variable (m : (ℓ : Loc nD τ sig) → Buf (Elt Ideal) ℓ) (ρ : Dev nD → PrngReg)

/-! No host operation between the launches writes the first launch's two vector results. -/
theorem v3_nw0 : (hostOps1 : List (HloOp τ sig (Elt Ideal))).Forall fun op => Proc.devRef .tc main_v0_3 ∉ op.writes := by
  simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)
theorem v3_nw1 : (hostOps1_1 : List (HloOp τ sig (Elt Ideal))).Forall fun op => Proc.devRef .tc main_v0_3 ∉ op.writes := by
  simp only [hostOps1_1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)
theorem v3_nw2 : (hostOps1_2 : List (HloOp τ sig (Elt Ideal))).Forall fun op => Proc.devRef .tc main_v0_3 ∉ op.writes := by
  simp only [hostOps1_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)
theorem v3_nw3 : (hostOps1_3 : List (HloOp τ sig (Elt Ideal))).Forall fun op => Proc.devRef .tc main_v0_3 ∉ op.writes := by
  simp only [hostOps1_3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)
theorem v4_nw0 : (hostOps1 : List (HloOp τ sig (Elt Ideal))).Forall fun op => Proc.devRef .tc main_v0_4 ∉ op.writes := by
  simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)
theorem v4_nw1 : (hostOps1_1 : List (HloOp τ sig (Elt Ideal))).Forall fun op => Proc.devRef .tc main_v0_4 ∉ op.writes := by
  simp only [hostOps1_1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)
theorem v4_nw2 : (hostOps1_2 : List (HloOp τ sig (Elt Ideal))).Forall fun op => Proc.devRef .tc main_v0_4 ∉ op.writes := by
  simp only [hostOps1_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)
theorem v4_nw3 : (hostOps1_3 : List (HloOp τ sig (Elt Ideal))).Forall fun op => Proc.devRef .tc main_v0_4 ∉ op.writes := by
  simp only [hostOps1_3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)

/-- The first launch's two vector results, read after the whole run: nothing later writes them, so they hold the
    first launch's payloads of the argument vectors. -/
theorem W6_v0_3 (c : Dev nD) : W6 m ρ c (Proc.devRef .tc main_v0_3)
    = k0_pay9 (F := Ideal) (m ((c : Thread nD τ).loc main_arg0)) (m ((c : Thread nD τ).loc main_arg1)) (m ((c : Thread nD τ).loc main_arg2)) :=
  (W6_of_untouched m ρ c main_v0_3 (by decide) v3_nw3 v3_nw2 v3_nw1 v3_nw0).trans
    ((W1_arr m ρ c 6).trans (region0_out6 (V0 m ρ) c))

theorem W6_v0_4 (c : Dev nD) : W6 m ρ c (Proc.devRef .tc main_v0_4)
    = k0_pay1 (F := Ideal) (m ((c : Thread nD τ).loc main_arg1)) (Scalar.ofBits .f32 0x00000000#32) :=
  (W6_of_untouched m ρ c main_v0_4 (by decide) v4_nw3 v4_nw2 v4_nw1 v4_nw0).trans
    ((W1_arr m ρ c 7).trans (region0_out7 (V0 m ρ) c))

/-- The second launch's input arrays as it finds them: the first launch's diagonals and bias, lengthened. -/
theorem V5_v7 (c : Dev nD) : V5 m ρ c main_v7
    = Cert.Spec.padExt (k0_pay6 (F := Ideal) (m ((c : Thread nD τ).loc main_arg0)) (m ((c : Thread nD τ).loc main_arg1)) (m ((c : Thread nD τ).loc main_arg2))) := by
  refine (host_v7 (W1 m ρ c)).trans ?_
  rw [show W1 m ρ c (Proc.devRef .tc main_v0_0) = _ from (W1_arr m ρ c 3).trans (region0_out3 (V0 m ρ) c)]
  exact padExt_of_host _

theorem V5_v8 (c : Dev nD) : V5 m ρ c main_v8
    = Cert.Spec.padExt (k0_pay7 (F := Ideal) (m ((c : Thread nD τ).loc main_arg0)) (m ((c : Thread nD τ).loc main_arg1))) := by
  refine (host_v8 (W1 m ρ c)).trans ?_
  rw [show W1 m ρ c (Proc.devRef .tc main_v0_1) = _ from (W1_arr m ρ c 4).trans (region0_out4 (V0 m ρ) c)]
  exact padExt_of_host _

theorem V5_v6 (c : Dev nD) : V5 m ρ c main_v6
    = Cert.Spec.biasExt (k0_pay8 (F := Ideal) (m ((c : Thread nD τ).loc main_arg0)) (m ((c : Thread nD τ).loc main_arg1))) := by
  refine (host_v6 (W1 m ρ c)).trans ?_
  rw [show W1 m ρ c (Proc.devRef .tc main_v0_2) = _ from (W1_arr m ρ c 5).trans (region0_out5 (V0 m ρ) c)]
  exact biasExt_of_host _

theorem W6_v9_0 (c : Dev nD) : W6 m ρ c (Proc.devRef .tc main_v9_0)
    = Cert.Spec.low (k0_pay6 (F := Ideal) (m ((c : Thread nD τ).loc main_arg0)) (m ((c : Thread nD τ).loc main_arg1)) (m ((c : Thread nD τ).loc main_arg2))) := by
  refine ((W6_arr m ρ c 3).trans (Cert.KRegion1.region1_out3 (V5 m ρ) c)).trans ?_
  rw [V5_v7]; rfl

theorem W6_v9_1 (c : Dev nD) : W6 m ρ c (Proc.devRef .tc main_v9_1)
    = Cert.Spec.up (k0_pay7 (F := Ideal) (m ((c : Thread nD τ).loc main_arg0)) (m ((c : Thread nD τ).loc main_arg1)))
        (k0_pay8 (F := Ideal) (m ((c : Thread nD τ).loc main_arg0)) (m ((c : Thread nD τ).loc main_arg1))) := by
  refine ((W6_arr m ρ c 4).trans (Cert.KRegion1.region1_out4 (V5 m ρ) c)).trans ?_
  rw [V5_v8, V5_v6]; rfl

/-- The run of the idealized kernel program: it terminates without a fault, the four results at the specification's
    functions of the arguments, the arguments as launched. -/
theorem run : θ_run defs (onTc (τ := τ) (main (F := Ideal))) ⟨m, fun _ => 0, ρ⟩ (fun r => ∀ c : Dev nD,
      r.2.mem ((c.tc : Thread nD τ).loc main_v0_3)
          = k0_pay9 (F := Ideal) (m ((c : Thread nD τ).loc main_arg0)) (m ((c : Thread nD τ).loc main_arg1)) (m ((c : Thread nD τ).loc main_arg2))
      ∧ r.2.mem ((c.tc : Thread nD τ).loc main_v0_4)
          = k0_pay1 (F := Ideal) (m ((c : Thread nD τ).loc main_arg1)) (Scalar.ofBits .f32 0x00000000#32)
      ∧ r.2.mem ((c.tc : Thread nD τ).loc main_v9_0)
          = Cert.Spec.low (k0_pay6 (F := Ideal) (m ((c : Thread nD τ).loc main_arg0)) (m ((c : Thread nD τ).loc main_arg1)) (m ((c : Thread nD τ).loc main_arg2)))
      ∧ r.2.mem ((c.tc : Thread nD τ).loc main_v9_1)
          = Cert.Spec.up (k0_pay7 (F := Ideal) (m ((c : Thread nD τ).loc main_arg0)) (m ((c : Thread nD τ).loc main_arg1)))
              (k0_pay8 (F := Ideal) (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v0_3 (by decide))).trans (W6_v0_3 m ρ c),
     (h c _ (mem_uc main_v0_4 (by decide))).trans (W6_v0_4 m ρ c),
     (h c _ (mem_uc main_v9_0 (by decide))).trans (W6_v9_0 m ρ c),
     (h c _ (mem_uc main_v9_1 (by decide))).trans (W6_v9_1 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩)
    (GenP.run (F := Ideal) m ρ)

end Cert.KValue

end
-- ==== Proof.RefElem.lean ====
/-
  The entrywise part of the two programs is one function.

  From three vectors of 8192 entries — lower bounds x0, upper bounds x1, slopes x2 — both programs form, entry by entry,
    active   = (x1 > 0) and (x0 ≥ 0),          unstable = (x1 > 0) and (x0 < 0),
    a        = min 1 (max 0 x2),               lam      = x1 / (if x1 - x0 = 0 then 1 else x1 - x0),
  and from them five vectors:
    the lower diagonal   select active 1 (select unstable a 0),
    the upper diagonal   select active 1 (select unstable lam 0),
    the upper bias       select unstable ((-lam) * x0) 0,
    the lower bound      select active x0 (select unstable (a * x0) 0),
    the upper bound      select (x1 > 0) x1 0.
  Over the extended reals the two spellings of each agree. The comparisons, the clip, the guarded quotient and the
  selections are the same terms once the definitions are opened; the one place where the spellings differ is the bias,
  where one side negates lam and the other subtracts it from zero: 0 - x = -x.
-/
import proofs.«149848_j47940424958601_1_alg».proof.Proof.Gen.ReferenceIdeal.Read
import proofs.«149848_j47940424958601_1_alg».proof.Proof.Gen.KernelIdeal.Skeleton
import Idealize.ShloMosaic.PureOps.Ideal
import Idealize.ShloMosaic.Lib.ValueIdx

noncomputable section

namespace Cert.RefValue

open Idealize.ShloMosaic Idealize.ShloMosaic.ValueIdx Cert.ReferenceIdeal.Read Cert.KernelIdeal.Gen

/-- The word of 0.0 denotes the extended real zero. -/
theorem ofBits_zero : Ideal.ofBits .f32 0x00000000#32 = 0 := by simp [Ideal.ofBits, Ideal.ieee]

/-! ### The four shared ingredients -/

/-- active: (x1 > 0) and (x0 ≥ 0). -/
theorem active_eq (x0 x1 : FVec Ideal Cert.ReferenceIdeal.S8192 .f32) :
    Cert.ReferenceIdeal.Read.val_main_v4 (F := Ideal) x0 x1
      = Cert.KernelIdeal.Gen.k0_pay2 (F := Ideal) x0 x1 := rfl

/-- unstable: (x1 > 0) and (x0 < 0). -/
theorem unstable_eq (x0 x1 : FVec Ideal Cert.ReferenceIdeal.S8192 .f32) :
    Cert.ReferenceIdeal.Read.val_main_v9 (F := Ideal) x0 x1
      = Cert.KernelIdeal.Gen.k0_pay3 (F := Ideal) x0 x1 := rfl

/-- a: the slope clipped to [0, 1], min 1 (max 0 x2). -/
theorem clip_eq (x2 : FVec Ideal Cert.ReferenceIdeal.S8192 .f32) :
    Cert.ReferenceIdeal.Read.val_main_v10 (F := Ideal) x2
      = Cert.KernelIdeal.Gen.k0_pay4 (F := Ideal) x2 := rfl

/-- lam: x1 divided by x1 - x0, the divisor replaced by 1 where it is zero. Both quotients are the one division of
    the extended reals. -/
theorem lam_eq (x0 x1 : FVec Ideal Cert.ReferenceIdeal.S8192 .f32) :
    Cert.ReferenceIdeal.Read.val_main_v16 (F := Ideal) x0 x1
      = Cert.KernelIdeal.Gen.k0_pay5 (F := Ideal) x0 x1 := rfl

/-! ### The five vectors -/

/-- The lower diagonal: select active 1 (select unstable a 0). -/
theorem v18_eq (x0 x1 x2 : FVec Ideal Cert.ReferenceIdeal.S8192 .f32) :
    Cert.ReferenceIdeal.Read.val_main_v18 (F := Ideal) x0 x1 x2
      = Cert.KernelIdeal.Gen.k0_pay6 (F := Ideal) x0 x1 x2 := by
  funext i
  rfl

/-- The upper diagonal: select active 1 (select unstable lam 0). -/
theorem v20_eq (x0 x1 : FVec Ideal Cert.ReferenceIdeal.S8192 .f32) :
    Cert.ReferenceIdeal.Read.val_main_v20 (F := Ideal) x0 x1
      = Cert.KernelIdeal.Gen.k0_pay7 (F := Ideal) x0 x1 := by
  funext i
  rfl

/-- The upper bias: select unstable ((-lam) * x0) 0. One side writes the factor as -lam, the other as 0 - lam; at an
    entry both sides are a selection between a product with x0 and zero, and 0 - x = -x makes the products equal. -/
theorem v23_eq (x0 x1 : FVec Ideal Cert.ReferenceIdeal.S8192 .f32) :
    Cert.ReferenceIdeal.Read.val_main_v23 (F := Ideal) x0 x1
      = Cert.KernelIdeal.Gen.k0_pay8 (F := Ideal) x0 x1 := by
  funext i
  show Scalar.select (val_main_v9 (F := Ideal) x0 x1 i)
        ((-(val_main_v16 (F := Ideal) x0 x1 i)) * x0 i) (Ideal.ofBits .f32 0x00000000#32)
     = Scalar.select (k0_pay3 (F := Ideal) x0 x1 i)
        ((Ideal.ofBits .f32 0x00000000#32 - k0_pay5 (F := Ideal) x0 x1 i) * x0 i)
        (Ideal.ofBits .f32 0x00000000#32)
  rw [ofBits_zero, zero_sub, lam_eq, unstable_eq]

/-- The lower bound: select active x0 (select unstable (a * x0) 0). -/
theorem v26_eq (x0 x1 x2 : FVec Ideal Cert.ReferenceIdeal.S8192 .f32) :
    Cert.ReferenceIdeal.Read.val_main_v26 (F := Ideal) x0 x1 x2
      = Cert.KernelIdeal.Gen.k0_pay9 (F := Ideal) x0 x1 x2 := by
  funext i
  rfl

/-- The upper bound: select (x1 > 0) x1 0, the threshold being the word of 0.0. -/
theorem v29_eq (x1 : FVec Ideal Cert.ReferenceIdeal.S8192 .f32) :
    Cert.ReferenceIdeal.Read.val_main_v29 (F := Ideal) x1
      = Cert.KernelIdeal.Gen.k0_pay1 (F := Ideal) x1 (Scalar.ofBits .f32 0x00000000#32) := by
  funext i
  rfl

end Cert.RefValue

end
-- ==== Proof.LibScatterSet.lean ====
/-
  Reading a scatter whose body returns the update ("set") at one result index.

  The scatter is a left fold over the update indices in row-major order; each step overwrites the entry its update
  index lands at, or leaves the accumulator alone when the update falls outside. Two facts about such a fold are enough
  to read it at a result index `i`: steps that do not touch entry `i` leave it as it was, and when exactly one element
  of a list without repeats writes entry `i`, the fold ends with the value that element writes.
-/
import Idealize.ShloMosaic.PureOps.ShapeOps
import Mathlib.Data.List.Nodup
import Mathlib.Data.List.FinRange

namespace Cert.Lib.ScatterSet

open Idealize.ShloMosaic

section Fold

variable {ι κ α : Type}

/-- A left fold of steps none of which changes entry `i` of the accumulator leaves entry `i` as it was. -/
theorem foldl_apply_of_untouched (step : (ι → α) → κ → (ι → α)) (i : ι) (l : List κ)
    (h : ∀ n ∈ l, ∀ r, step r n i = r i) (r : ι → α) : l.foldl step r i = r i := by
  induction l generalizing r with
  | nil => rfl
  | cons n l ih =>
    rw [List.foldl_cons, ih (fun m hm => h m (List.mem_cons_of_mem _ hm))]
    exact h n List.mem_cons_self r

/-- A left fold over a list without repeats in which one element `n0` sets entry `i` of the accumulator to `a`
    whatever the accumulator, and every other element leaves entry `i` alone, ends with `a` at entry `i`. -/
theorem foldl_apply_of_unique (step : (ι → α) → κ → (ι → α)) (i : ι) (a : α) (n0 : κ) (l : List κ)
    (hnd : l.Nodup) (hn0 : n0 ∈ l) (hset : ∀ r, step r n0 i = a)
    (hother : ∀ n ∈ l, n ≠ n0 → ∀ r, step r n i = r i) (r : ι → α) : l.foldl step r i = a := by
  induction l generalizing r with
  | nil => cases hn0
  | cons n l ih =>
    rw [List.foldl_cons]
    rw [List.nodup_cons] at hnd
    by_cases hn : n = n0
    · subst hn
      rw [foldl_apply_of_untouched step i l (fun m hm => hother m (List.mem_cons_of_mem _ hm)
        (fun e => hnd.1 (e ▸ hm)))]
      exact hset r
    · have hn0' : n0 ∈ l := by
        rcases List.mem_cons.1 hn0 with e | e
        · exact absurd e.symm hn
        · exact e
      exact ih hnd.2 hn0' (fun m hm => hother m (List.mem_cons_of_mem _ hm)) _

end Fold

variable {α : Type} {s si u : Shape} {w : Nat}

/-- A "set" scatter read at a result index `i` at which exactly one update index `j` lands: the entry is the
    update's element at `j`. -/
theorem scatter_set_of_hit (d : ScatterDims s si u) (x : s.Idx → α) (idx : IVec si w) (upd : u.Idx → α)
    (i : s.Idx) (j : u.Idx)
    (hj : d.resultIdx? j idx = some i) (huniq : ∀ j', d.resultIdx? j' idx = some i → j' = j) :
    Host.scatter d (fun _ b => b) x idx upd i = upd j := by
  unfold Host.scatter
  refine foldl_apply_of_unique _ i (upd j) (u.rowMajor j) _ (List.nodup_finRange _) (List.mem_finRange _) ?_ ?_ x
  · intro r
    simp only [Equiv.symm_apply_apply, hj, if_true]
  · intro n _ hn r
    cases h0 : d.resultIdx? (u.rowMajor.symm n) idx with
    | none => rfl
    | some i0 =>
      have hne : i ≠ i0 := by
        intro e
        subst e
        exact hn (by rw [← huniq _ h0, Equiv.apply_symm_apply])
      exact if_neg hne

/-- A "set" scatter read at a result index `i` at which no update index lands: the entry is the operand's. -/
theorem scatter_set_of_miss (d : ScatterDims s si u) (x : s.Idx → α) (idx : IVec si w) (upd : u.Idx → α)
    (i : s.Idx) (hmiss : ∀ j, d.resultIdx? j idx ≠ some i) :
    Host.scatter d (fun _ b => b) x idx upd i = x i := by
  unfold Host.scatter
  refine foldl_apply_of_untouched _ i _ ?_ x
  intro n _ r
  cases h0 : d.resultIdx? (u.rowMajor.symm n) idx with
  | none => rfl
  | some i0 =>
    have hne : i ≠ i0 := by
      intro e
      subst e
      exact hmiss _ h0
    exact if_neg hne

end Cert.Lib.ScatterSet
-- ==== Proof.RefScatter.lean ====
/-
  The reference's two 8193 × 8193 matrices, read entry by entry.

  Each matrix is built by writing into a zero matrix: first the 8192 diagonal entries (k, k) from a vector, by a scatter
  whose index array has rows (k, k); for the upper matrix then the 8192 entries (8192, c), c < 8192, of the last row from a
  second vector, by a scatter of one window along axis 1 started at (8192, 0); finally a one at the corner (8192, 8192), by
  a scatter of a single entry. Every scatter's body returns the update, and at every result entry at most one update
  lands, so each scatter reads as "the update where one lands, the operand elsewhere". For each of the three dimension
  numbers the landing place of an update is computed once (window start plus window coordinate on each operand axis,
  the starts being small non-negative words read signed), and the three reads are chained and compared with the
  specification's lower and upper matrices by cases on the entry's coordinates.
-/
import proofs.«149848_j47940424958601_1_alg».proof.Proof.Gen.ReferenceIdeal.Read
import proofs.«149848_j47940424958601_1_alg».proof.Proof.Spec
import proofs.«149848_j47940424958601_1_alg».proof.Proof.LibScatterSet
import Idealize.ShloMosaic.Lib.ValueIdx
import Idealize.ShloMosaic.Lib.Pipeline.Value

noncomputable section

namespace Cert.RefValue

open Cert.ReferenceIdeal Cert.ReferenceIdeal.Read Idealize.ShloMosaic Idealize.ShloMosaic.ValueIdx

variable {F : FTy → Type} [FloatOps F]

/-- A natural below 2^31, as a 32-bit word read signed, is itself. -/
theorem toInt_ofNat_small (k : Nat) (hk : k < 2147483648) : (BitVec.ofNat 32 k).toInt = (k : Int) := by
  simp only [BitVec.toInt, BitVec.toNat_ofNat]
  omega

/-- "k if k ≥ 0 else k + 8193" on the word of a natural k below 8192 is the word of k. -/
theorem iota_select (k : Nat) (hk : k < 8192) :
    Scalar.select (IntOp.cmpi .slt (BitVec.ofNat 32 k) 0#32) (IntOp.addi (BitVec.ofNat 32 k) 8193#32)
      (BitVec.ofNat 32 k) = BitVec.ofNat 32 k := by
  have h : IntOp.cmpi .slt (BitVec.ofNat 32 k) 0#32 = 0#1 := by
    unfold IntOp.cmpi
    have : (BitVec.ofNat 32 k).slt 0#32 = false := by
      rw [BitVec.slt, toInt_ofNat_small k (by omega)]
      simp
    simp only [this]
    rfl
  rw [h, select_zero]

/-- The first column of the first index array before broadcasting: entry k is the word of k. -/
theorem v36_at (k : Fin 8192) : val_main_v36 (F := F) (ix1 k) = BitVec.ofNat 32 k.val := by
  rw [val_main_v36_apply, val_main_v33_apply, val_main_v35_apply, val_main_v30_apply, val_main_v32_apply,
    val_main_c_apply, val_main_v34_apply, val_main_c_16_apply]
  exact iota_select k.val k.isLt

/-- The second column of the first index array before broadcasting: entry k is the word of k. -/
theorem v41_at (k : Fin 8192) : val_main_v41 (F := F) (ix1 k) = BitVec.ofNat 32 k.val := by
  rw [val_main_v41_apply, val_main_v38_apply, val_main_v40_apply, val_main_v30_apply, val_main_v37_apply,
    val_main_c_17_apply, val_main_v39_apply, val_main_c_18_apply]
  exact iota_select k.val k.isLt

/-- The index array of the first diagonal scatter: row k is (k, k). -/
theorem v44_at (k : Fin 8192) (c : Fin 2) : val_main_v44 (F := F) (ix2 k c) = BitVec.ofNat 32 k.val := by
  unfold val_main_v44
  match c with
  | ⟨0, _⟩ =>
    refine (concatenate_pair_apply_left (t := S8192x2) (s₁ := S8192x1) (s₂ := S8192x1) (1 : Fin 2) _ _ _
      (ix2 k (0 : Fin 2)) rfl (ix2 k (0 : Fin 1)) (fun b => match b with | ⟨0, _⟩ => rfl | ⟨1, _⟩ => rfl)).trans ?_
    rw [val_main_v42_apply]
    exact v36_at k
  | ⟨1, _⟩ =>
    refine (concatenate_pair_apply_right (t := S8192x2) (s₁ := S8192x1) (s₂ := S8192x1) (1 : Fin 2) _ _ _
      (ix2 k (1 : Fin 2)) rfl rfl (ix2 k (0 : Fin 1)) ?_ rfl).trans ?_
    · intro b hb
      match b with
      | ⟨0, _⟩ => rfl
      | ⟨1, _⟩ => exact absurd rfl hb
    · rw [val_main_v43_apply]
      exact v41_at k

/-- The first column of the second index array before broadcasting: entry k is the word of k. -/
theorem v55_at (k : Fin 8192) : val_main_v55 (F := F) (ix1 k) = BitVec.ofNat 32 k.val := by
  rw [val_main_v55_apply, val_main_v52_apply, val_main_v54_apply, val_main_v30_apply, val_main_v51_apply,
    val_main_c_23_apply, val_main_v53_apply, val_main_c_24_apply]
  exact iota_select k.val k.isLt

/-- The second column of the second index array before broadcasting: entry k is the word of k. -/
theorem v60_at (k : Fin 8192) : val_main_v60 (F := F) (ix1 k) = BitVec.ofNat 32 k.val := by
  rw [val_main_v60_apply, val_main_v57_apply, val_main_v59_apply, val_main_v30_apply, val_main_v56_apply,
    val_main_c_25_apply, val_main_v58_apply, val_main_c_26_apply]
  exact iota_select k.val k.isLt

/-- The index array of the second diagonal scatter: row k is (k, k). -/
theorem v63_at (k : Fin 8192) (c : Fin 2) : val_main_v63 (F := F) (ix2 k c) = BitVec.ofNat 32 k.val := by
  unfold val_main_v63
  match c with
  | ⟨0, _⟩ =>
    refine (concatenate_pair_apply_left (t := S8192x2) (s₁ := S8192x1) (s₂ := S8192x1) (1 : Fin 2) _ _ _
      (ix2 k (0 : Fin 2)) rfl (ix2 k (0 : Fin 1)) (fun b => match b with | ⟨0, _⟩ => rfl | ⟨1, _⟩ => rfl)).trans ?_
    rw [val_main_v61_apply]
    exact v55_at k
  | ⟨1, _⟩ =>
    refine (concatenate_pair_apply_right (t := S8192x2) (s₁ := S8192x1) (s₂ := S8192x1) (1 : Fin 2) _ _ _
      (ix2 k (1 : Fin 2)) rfl rfl (ix2 k (0 : Fin 1)) ?_ rfl).trans ?_
    · intro b hb
      match b with
      | ⟨0, _⟩ => rfl
      | ⟨1, _⟩ => exact absurd rfl hb
    · rw [val_main_v62_apply]
      exact v60_at k

/-- A vector of two entries joined from two one-entry vectors, at its first entry. -/
theorem pair_at_zero {α : Type} (a b : S1.Idx → α) (h : Shape.Concatenates [S1, S1] S2 0) :
    concatenate S2 0 [⟨S1, a⟩, ⟨S1, b⟩] h (ix1 (0 : Fin 2)) = a (ix1 (0 : Fin 1)) :=
  concatenate_pair_apply_left (t := S2) (s₁ := S1) (s₂ := S1) (0 : Fin 1) a b h (ix1 (0 : Fin 2)) rfl
    (ix1 (0 : Fin 1)) (fun c => match c with | ⟨0, _⟩ => rfl)

/-- A vector of two entries joined from two one-entry vectors, at its second entry. -/
theorem pair_at_one {α : Type} (a b : S1.Idx → α) (h : Shape.Concatenates [S1, S1] S2 0) :
    concatenate S2 0 [⟨S1, a⟩, ⟨S1, b⟩] h (ix1 (1 : Fin 2)) = b (ix1 (0 : Fin 1)) :=
  concatenate_pair_apply_right (t := S2) (s₁ := S1) (s₂ := S1) (0 : Fin 1) a b h (ix1 (1 : Fin 2)) rfl rfl
    (ix1 (0 : Fin 1)) (fun c hc => match c with | ⟨0, _⟩ => absurd rfl hc) rfl

/-- The index vectors of the three single-start scatters, entry by entry: (8192, 8192), (8192, 0), (8192, 8192). -/
theorem v48_at_zero : val_main_v48 (F := F) (ix1 (0 : Fin 2)) = BitVec.ofNat 32 8192 := by
  unfold val_main_v48
  rw [pair_at_zero, val_main_v46_apply, val_main_c_19_apply]

theorem v48_at_one : val_main_v48 (F := F) (ix1 (1 : Fin 2)) = BitVec.ofNat 32 8192 := by
  unfold val_main_v48
  rw [pair_at_one, val_main_v47_apply, val_main_c_20_apply]

theorem v67_at_zero : val_main_v67 (F := F) (ix1 (0 : Fin 2)) = BitVec.ofNat 32 8192 := by
  unfold val_main_v67
  rw [pair_at_zero, val_main_v65_apply, val_main_c_27_apply]

theorem v67_at_one : val_main_v67 (F := F) (ix1 (1 : Fin 2)) = BitVec.ofNat 32 0 := by
  unfold val_main_v67
  rw [pair_at_one, val_main_v66_apply, val_main_c_28_apply]

theorem v71_at_zero : val_main_v71 (F := F) (ix1 (0 : Fin 2)) = BitVec.ofNat 32 8192 := by
  unfold val_main_v71
  rw [pair_at_zero, val_main_v69_apply, val_main_c_29_apply]

theorem v71_at_one : val_main_v71 (F := F) (ix1 (1 : Fin 2)) = BitVec.ofNat 32 8192 := by
  unfold val_main_v71
  rw [pair_at_one, val_main_v70_apply, val_main_c_30_apply]

section General
variable {s si u : Shape} {w : Nat}

/-- An update index lands at a result index exactly when, on every operand axis, window start plus window coordinate
    is that index's coordinate. -/
theorem resultIdx_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro e
    split at e
    · next h =>
      have e' := Option.some.inj e
      intro a
      rw [← e']
      exact (Int.toNat_of_nonneg (h a).1).symm
    · cases e
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    refine Fin.ext ?_
    show (d.start j idx a + (d.window j a : Int)).toNat = (i a).val
    rw [h a]
    exact Int.toNat_natCast _
end General

/-- The diagonal scatter has no window axes: every window coordinate is zero. -/
theorem diag_window (j : S8192.Idx) (a : Fin 2) : scatter_S8193x8193_S8192x2_S8192_n_01_01_1.window j a = 0 := by
  unfold ScatterDims.window
  have hm : a ∉ scatter_S8193x8193_S8192x2_S8192_n_01_01_1.sKept := by fin_cases a <;> decide
  exact dif_neg hm

/-- The diagonal scatter's window start for update k on operand axis a: entry (k, a) of the index array, read signed. -/
theorem diag_start {w : Nat} (idx : IVec S8192x2 w) (k : Fin 8192) (a : Fin 2) :
    scatter_S8193x8193_S8192x2_S8192_n_01_01_1.start (ix1 k) idx a = (idx (ix2 k a)).toInt := by
  unfold ScatterDims.start
  have hm : a ∈ scatter_S8193x8193_S8192x2_S8192_n_01_01_1.scatterDimsToOperandDims := by fin_cases a <;> decide
  rw [dif_pos hm]
  refine congrArg (fun z => (idx z).toInt) ?_
  funext b
  refine Fin.ext ?_
  fin_cases a <;> fin_cases b <;> rfl

/-- Where update k of the diagonal scatter lands, when row k of the index array is (k, k): at (k, k). -/
theorem diag_lands (idx : IVec S8192x2 32) (hidx : ∀ k c, idx (ix2 k c) = BitVec.ofNat 32 k.val)
    (k : Fin 8192) (i : S8193x8193.Idx) :
    scatter_S8193x8193_S8192x2_S8192_n_01_01_1.resultIdx? (ix1 k) idx = some i ↔
      (i 0).val = k.val ∧ (i 1).val = k.val := by
  have hk : k.val < 2147483648 := Nat.lt_trans k.isLt (by decide)
  rw [resultIdx_eq_some_iff]
  constructor
  · intro h
    have h0 := h 0
    have h1 := h 1
    rw [diag_start, diag_window, hidx, toInt_ofNat_small _ hk] at h0 h1
    constructor <;> omega
  · rintro ⟨h0, h1⟩ a
    rw [diag_start, diag_window, hidx, toInt_ofNat_small _ hk]
    fin_cases a
    · show (k.val : Int) + ((0 : Nat) : Int) = ((i 0).val : Int)
      omega
    · show (k.val : Int) + ((0 : Nat) : Int) = ((i 1).val : Int)
      omega

/-- The diagonal scatter read at an entry: the update's entry r on the diagonal entry (r, r) with r below 8192, the
    operand's entry elsewhere. -/
theorem diag_scatter_at {α : Type} (x : S8193x8193.Idx → α) (idx : IVec S8192x2 32) (upd : S8192.Idx → α)
    (hidx : ∀ k c, idx (ix2 k c) = BitVec.ofNat 32 k.val) (i : S8193x8193.Idx) :
    Host.scatter scatter_S8193x8193_S8192x2_S8192_n_01_01_1 (fun _ b => b) x idx upd i =
      if h : (i 0).val = (i 1).val ∧ (i 0).val < 8192 then upd (ix1 ⟨(i 0).val, h.2⟩) else x i := by
  split
  · next h =>
    refine Cert.Lib.ScatterSet.scatter_set_of_hit _ _ _ _ i (ix1 ⟨(i 0).val, h.2⟩) ?_ ?_
    · exact (diag_lands idx hidx _ i).2 ⟨rfl, h.1.symm⟩
    · intro j' hj'
      rw [eq_ix1 j'] at hj' ⊢
      have := (diag_lands idx hidx _ i).1 hj'
      exact congrArg ix1 (Fin.ext this.1.symm)
  · next h =>
    refine Cert.Lib.ScatterSet.scatter_set_of_miss _ _ _ _ i ?_
    intro j hj
    rw [eq_ix1 j] at hj
    have := (diag_lands idx hidx _ i).1 hj
    have hlt : (j 0).val < 8192 := (j 0).isLt
    exact h ⟨by omega, by omega⟩

/-- The single-entry scatter has no window axes: every window coordinate is zero. -/
theorem corner_window (j : S_.Idx) (a : Fin 2) : scatter_S8193x8193_S2_S__n_01_01_0.window j a = 0 := by
  unfold ScatterDims.window
  have hm : a ∉ scatter_S8193x8193_S2_S__n_01_01_0.sKept := by fin_cases a <;> decide
  exact dif_neg hm

/-- The single-entry scatter's window start on operand axis a: entry a of the index vector, read signed. -/
theorem corner_start {w : Nat} (idx : IVec S2 w) (j : S_.Idx) (a : Fin 2) :
    scatter_S8193x8193_S2_S__n_01_01_0.start j idx a = (idx (ix1 a)).toInt := by
  unfold ScatterDims.start
  have hm : a ∈ scatter_S8193x8193_S2_S__n_01_01_0.scatterDimsToOperandDims := by fin_cases a <;> decide
  rw [dif_pos hm]
  refine congrArg (fun z => (idx z).toInt) ?_
  funext b
  refine Fin.ext ?_
  fin_cases a <;> fin_cases b <;> rfl

/-- Where the one update of the single-entry scatter lands, when the index vector is (r, c): at (r, c). -/
theorem corner_lands (idx : IVec S2 32) (r c : Nat) (hr : r < 2147483648) (hc : c < 2147483648)
    (h0 : idx (ix1 0) = BitVec.ofNat 32 r) (h1 : idx (ix1 1) = BitVec.ofNat 32 c) (j : S_.Idx) (i : S8193x8193.Idx) :
    scatter_S8193x8193_S2_S__n_01_01_0.resultIdx? j idx = some i ↔ (i 0).val = r ∧ (i 1).val = c := by
  rw [resultIdx_eq_some_iff]
  constructor
  · intro h
    have e0 := h 0
    have e1 := h 1
    rw [corner_start, corner_window] at e0 e1
    rw [h0, toInt_ofNat_small _ hr] at e0
    rw [h1, toInt_ofNat_small _ hc] at e1
    constructor <;> omega
  · rintro ⟨e0, e1⟩ a
    rw [corner_start, corner_window]
    fin_cases a
    · show (idx (ix1 0)).toInt + ((0 : Nat) : Int) = ((i 0).val : Int)
      rw [h0, toInt_ofNat_small _ hr]
      omega
    · show (idx (ix1 1)).toInt + ((0 : Nat) : Int) = ((i 1).val : Int)
      rw [h1, toInt_ofNat_small _ hc]
      omega

/-- The single-entry scatter read at an entry: the update at (r, c), the operand's entry elsewhere. -/
theorem corner_scatter_at {α : Type} (x : S8193x8193.Idx → α) (idx : IVec S2 32) (upd : S_.Idx → α)
    (r c : Nat) (hr : r < 2147483648) (hc : c < 2147483648)
    (h0 : idx (ix1 0) = BitVec.ofNat 32 r) (h1 : idx (ix1 1) = BitVec.ofNat 32 c) (i : S8193x8193.Idx) :
    Host.scatter scatter_S8193x8193_S2_S__n_01_01_0 (fun _ b => b) x idx upd i =
      if (i 0).val = r ∧ (i 1).val = c then upd ix0 else x i := by
  split
  · next h =>
    refine Cert.Lib.ScatterSet.scatter_set_of_hit _ _ _ _ i ix0 ?_ ?_
    · exact (corner_lands idx r c hr hc h0 h1 _ i).2 h
    · intro j' _
      exact eq_ix0 j'
  · next h =>
    refine Cert.Lib.ScatterSet.scatter_set_of_miss _ _ _ _ i ?_
    intro j hj
    exact h ((corner_lands idx r c hr hc h0 h1 _ i).1 hj)

/-- The row scatter's window runs along operand axis 1: update k has window coordinate k there and zero on axis 0. -/
theorem row_window (k : Fin 8192) (a : Fin 2) :
    scatter_S8193x8193_S2_S8192_0_0_01_0.window (ix1 k) a = if a = 1 then k.val else 0 := by
  unfold ScatterDims.window
  fin_cases a
  · exact dif_neg (by decide)
  · rw [dif_pos (by decide)]
    rfl

/-- The row scatter's window start on operand axis a: entry a of the index vector, read signed. -/
theorem row_start {w : Nat} (idx : IVec S2 w) (j : S8192.Idx) (a : Fin 2) :
    scatter_S8193x8193_S2_S8192_0_0_01_0.start j idx a = (idx (ix1 a)).toInt := by
  unfold ScatterDims.start
  have hm : a ∈ scatter_S8193x8193_S2_S8192_0_0_01_0.scatterDimsToOperandDims := by fin_cases a <;> decide
  rw [dif_pos hm]
  refine congrArg (fun z => (idx z).toInt) ?_
  funext b
  refine Fin.ext ?_
  fin_cases a <;> fin_cases b <;> rfl

/-- Where update k of the row scatter lands, when the index vector is (r, 0): at (r, k). -/
theorem row_lands (idx : IVec S2 32) (r : Nat) (hr : r < 2147483648)
    (h0 : idx (ix1 0) = BitVec.ofNat 32 r) (h1 : idx (ix1 1) = BitVec.ofNat 32 0) (k : Fin 8192) (i : S8193x8193.Idx) :
    scatter_S8193x8193_S2_S8192_0_0_01_0.resultIdx? (ix1 k) idx = some i ↔ (i 0).val = r ∧ (i 1).val = k.val := by
  rw [resultIdx_eq_some_iff]
  constructor
  · intro h
    have e0 := h 0
    have e1 := h 1
    rw [row_start, row_window] at e0 e1
    rw [h0, toInt_ofNat_small _ hr, if_neg (by decide)] at e0
    rw [h1, toInt_ofNat_small _ (by decide), if_pos rfl] at e1
    constructor <;> omega
  · rintro ⟨e0, e1⟩ a
    rw [row_start, row_window]
    fin_cases a
    · show (idx (ix1 0)).toInt + ((if (0 : Fin 2) = 1 then k.val else 0 : Nat) : Int) = ((i 0).val : Int)
      rw [h0, toInt_ofNat_small _ hr, if_neg (by decide)]
      omega
    · show (idx (ix1 1)).toInt + ((if (1 : Fin 2) = 1 then k.val else 0 : Nat) : Int) = ((i 1).val : Int)
      rw [h1, toInt_ofNat_small _ (by decide), if_pos rfl]
      omega

/-- The row scatter read at an entry: the update's entry c at (r, c) with c below 8192, the operand's entry elsewhere. -/
theorem row_scatter_at {α : Type} (x : S8193x8193.Idx → α) (idx : IVec S2 32) (upd : S8192.Idx → α)
    (r : Nat) (hr : r < 2147483648)
    (h0 : idx (ix1 0) = BitVec.ofNat 32 r) (h1 : idx (ix1 1) = BitVec.ofNat 32 0) (i : S8193x8193.Idx) :
    Host.scatter scatter_S8193x8193_S2_S8192_0_0_01_0 (fun _ b => b) x idx upd i =
      if h : (i 0).val = r ∧ (i 1).val < 8192 then upd (ix1 ⟨(i 1).val, h.2⟩) else x i := by
  split
  · next h =>
    refine Cert.Lib.ScatterSet.scatter_set_of_hit _ _ _ _ i (ix1 ⟨(i 1).val, h.2⟩) ?_ ?_
    · exact (row_lands idx r hr h0 h1 _ i).2 ⟨h.1, rfl⟩
    · intro j' hj'
      rw [eq_ix1 j'] at hj' ⊢
      have := (row_lands idx r hr h0 h1 _ i).1 hj'
      exact congrArg ix1 (Fin.ext this.2.symm)
  · next h =>
    refine Cert.Lib.ScatterSet.scatter_set_of_miss _ _ _ _ i ?_
    intro j hj
    rw [eq_ix1 j] at hj
    have := (row_lands idx r hr h0 h1 _ i).1 hj
    have hlt : (j 0).val < 8192 := (j 0).isLt
    exact h ⟨this.1, by omega⟩

/-- The lower matrix of the specification at an entry, its two lengthenings unfolded. -/
theorem low_at (v : FVec F S8192 .f32) (i : S8193x8193.Idx) :
    Cert.Spec.low v i =
      if (i 0).val = (i 1).val then
        (if h : (i 0).val < 8192 then v (ix1 ⟨(i 0).val, h⟩) else if (i 0).val = 8192 then Cert.Spec.one else Cert.Spec.zero)
      else Cert.Spec.zero := rfl

/-- The upper matrix of the specification at an entry, its lengthenings unfolded. -/
theorem up_at (du bu : FVec F S8192 .f32) (i : S8193x8193.Idx) :
    Cert.Spec.up du bu i =
      if (i 0).val = 8192 ∧ (i 1).val < 8192 then
        (if h : (i 1).val < 8192 then bu (ix1 ⟨(i 1).val, h⟩) else Cert.Spec.zero)
      else if (i 0).val = (i 1).val then
        (if h : (i 0).val < 8192 then du (ix1 ⟨(i 0).val, h⟩) else if (i 0).val = 8192 then Cert.Spec.one else Cert.Spec.zero)
      else Cert.Spec.zero := rfl

/-- The reference's lower matrix — the diagonal written into a zero matrix, then a one into the last corner — is the
    specification's. -/
theorem v49_eq (x0 x1 x2 : FVec F S8192 .f32) :
    val_main_v49 (F := F) x0 x1 x2 = Cert.Spec.low (val_main_v18 (F := F) x0 x1 x2) := by
  funext i
  have hi0 : (i 0).val < 8193 := idx2_lt0 i
  have hi1 : (i 1).val < 8193 := idx2_lt1 i
  unfold val_main_v49
  rw [corner_scatter_at _ _ _ 8192 8192 (by decide) (by decide) v48_at_zero v48_at_one]
  unfold val_main_v45
  rw [diag_scatter_at _ _ _ v44_at, val_main_v31_apply, val_main_cst_15_apply, val_main_cst_21_apply, low_at]
  split_ifs <;> first | rfl | (exfalso; omega)

/-- The reference's upper matrix — the diagonal written into a zero matrix, then the bias along the last row, then a
    one into the last corner — is the specification's. -/
theorem v72_eq (x0 x1 : FVec F S8192 .f32) :
    val_main_v72 (F := F) x0 x1 = Cert.Spec.up (val_main_v20 (F := F) x0 x1) (val_main_v23 (F := F) x0 x1) := by
  funext i
  have hi0 : (i 0).val < 8193 := idx2_lt0 i
  have hi1 : (i 1).val < 8193 := idx2_lt1 i
  unfold val_main_v72
  rw [corner_scatter_at _ _ _ 8192 8192 (by decide) (by decide) v71_at_zero v71_at_one]
  unfold val_main_v68
  rw [row_scatter_at _ _ _ 8192 (by decide) v67_at_zero v67_at_one]
  unfold val_main_v64
  rw [diag_scatter_at _ _ _ v63_at, val_main_v50_apply, val_main_cst_22_apply, val_main_cst_31_apply, up_at]
  split_ifs <;> first | rfl | (exfalso; omega)

end Cert.RefValue

end
-- ==== Proof.lean ====
/-
  The proof of `Cert.Claim`: the kernel program and its reference compute the same four results over the extended reals.

  From three vectors of 8192 entries (lower bounds, upper bounds, slopes) both programs derive, entry by entry, a lower
  and an upper bound vector, two diagonal vectors and a bias vector, and lay the last three out in two 8193 × 8193
  matrices: each diagonal vector on a diagonal that ends in a one, the bias along the last row of the upper matrix, zero
  elsewhere. The kernel program does it in two launches — one entrywise over the whole vectors, one that builds the
  matrices in row blocks of 128 from the diagonals lengthened to 8320 entries and the bias lengthened to 8193, its last
  block cut at the matrices' end — and the reference by writing the same entries into zero matrices.

  The frames of the two kernel programs are the frame certificate repaired in one place (the grid coordinate the second
  launch's stored values read); the reference's frame is its run with the results dropped. No rewrite was made in
  idealizing the kernel, so nothing is owed for it. For the equivalence both runs are read with their results named: the
  kernel's results are the specification's functions of the arguments (the first launch's payloads; the lower and upper
  matrices of them), the reference's stages are the same functions (entrywise the same terms but for 0 − x = −x; each
  scatter read at an index, where exactly one update lands or none), and the arguments agree.
-/
import proofs.«149848_j47940424958601_1_alg».proof.Defs
import proofs.«149848_j47940424958601_1_alg».proof.Proof.Gen.Kernel
import proofs.«149848_j47940424958601_1_alg».proof.Proof.Gen.KernelIdeal
import proofs.«149848_j47940424958601_1_alg».proof.Proof.Gen.ReferenceIdeal
import proofs.«149848_j47940424958601_1_alg».proof.Proof.Gen.Pre_finite_inputs
import proofs.«149848_j47940424958601_1_alg».proof.Proof.Gen.ReferenceIdeal.Run
import proofs.«149848_j47940424958601_1_alg».proof.Proof.Gen.ReferenceIdeal.Read
import proofs.«149848_j47940424958601_1_alg».proof.Proof.FrameK
import proofs.«149848_j47940424958601_1_alg».proof.Proof.KValue
import proofs.«149848_j47940424958601_1_alg».proof.Proof.RefElem
import proofs.«149848_j47940424958601_1_alg».proof.Proof.RefScatter
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference has no launch: its frame is its run with the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- From memories that agree on the three arguments both idealized programs end with the same four results: the
    kernel's run names them as the specification's functions of its arguments, and each stage of the reference's run is
    that function of its own arguments. -/
theorem algebraic : Cert.algebraic_KernelIdeal_ReferenceIdeal := by
  intro m ρ m' ρ' _ hagree
  refine ⟨_, _, _, _, Cert.KValue.run m ρ, ?_⟩
  refine (θ_run Cert.ReferenceIdeal.defs _ _).mono (fun _ h c =>
    ⟨(h c).1.trans ?_, (h c).2.1.trans ?_, (h c).2.2.1.trans ?_, (h c).2.2.2.1.trans ?_, (h c).2.2.2.2⟩)
    (Cert.ReferenceIdeal.Value.run (F := Ideal) m' ρ')
  · rw [Cert.ReferenceIdeal.Read.val_main_v26_eq, Cert.RefValue.v26_eq, (hagree c).1, (hagree c).2.1, (hagree c).2.2]
  · rw [Cert.ReferenceIdeal.Read.val_main_v29_eq, Cert.RefValue.v29_eq, (hagree c).2.1]
  · rw [Cert.ReferenceIdeal.Read.val_main_v49_eq, Cert.RefValue.v49_eq, Cert.RefValue.v18_eq,
      (hagree c).1, (hagree c).2.1, (hagree c).2.2]
  · rw [Cert.ReferenceIdeal.Read.val_main_v72_eq, Cert.RefValue.v72_eq, Cert.RefValue.v20_eq, Cert.RefValue.v23_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
